-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x500000 : Shape := ⟨2, ![2, 500000]⟩
abbrev S500000 : Shape := ⟨1, ![500000]⟩
abbrev S64x16 : Shape := ⟨2, ![64, 16]⟩
abbrev S64 : Shape := ⟨1, ![64]⟩
abbrev S128x64 : Shape := ⟨2, ![128, 64]⟩
abbrev S128 : Shape := ⟨1, ![128]⟩
abbrev S128x256 : Shape := ⟨2, ![128, 256]⟩
abbrev S64x128 : Shape := ⟨2, ![64, 128]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S50x4 : Shape := ⟨2, ![50, 4]⟩
abbrev S50 : Shape := ⟨1, ![50]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_
  bcast_S_S50x4 : S_.BroadcastsInDim S50x4 (![] : Fin 0 → Fin S50x4.rank)
  reducesTo_S50x4_S_d0_1 : S50x4.ReducesTo [0, 1] S_
  bcast_S_S50 : S_.BroadcastsInDim S50 (![] : Fin 0 → Fin S50.rank)
  reducesTo_S50_S_d0 : S50.ReducesTo [0] S_

variable [Facts]

def fn_part6 {F : FTy → Type} [FloatOps F] (main_v98 : IVec S_ 1) (main_v101 : IVec S50 1) (main_c_39 : IVec S_ 1) : IVec S_ 1 :=
  let main_v102 : IVec S_ 1 := (fun x v => Host.reduce IntOp.andi x v reducesTo_S50_S_d0 h_S_) main_v101 main_c_39
  let main_v103 : IVec S_ 1 := andi main_v98 main_v102
  main_v103

def fn_part5 {F : FTy → Type} [FloatOps F] (main_arg20 : FVec F S4 .f32) (main_arg21 : FVec F S50x4 .f32) (main_arg22 : FVec F S50 .f32) (main_v83 : IVec S_ 1) (main_v84 : FVec F S4x8 .f32) (main_cst_32 : FVec F S_ .f32) : IVec S_ 1 :=
  let main_v85 : FVec F S4x8 .f32 := broadcastInDim S4x8 ![] bcast_S_S4x8 main_cst_32
  let main_v86 : IVec S4x8 1 := cmpf .olt main_v84 main_v85
  let main_c_33 : IVec S_ 1 := constantI S_ 1 1#1
  let main_v87 : IVec S_ 1 := (fun x v => Host.reduce IntOp.andi x v reducesTo_S4x8_S_d0_1 h_S_) main_v86 main_c_33
  let main_v88 : IVec S_ 1 := andi main_v83 main_v87
  let main_v89 : FVec F S4 .f32 := Host.absf main_arg20
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  let main_v94 : FVec F S50x4 .f32 := Host.absf main_arg21
  let main_cst_36 : FVec F S_ .f32 := constant S_ .f32 0x7F800000#32
  let main_v95 : FVec F S50x4 .f32 := broadcastInDim S50x4 ![] bcast_S_S50x4 main_cst_36
  let main_v96 : IVec S50x4 1 := cmpf .olt main_v94 main_v95
  let main_c_37 : IVec S_ 1 := constantI S_ 1 1#1
  let main_v97 : IVec S_ 1 := (fun x v => Host.reduce IntOp.andi x v reducesTo_S50x4_S_d0_1 h_S_) main_v96 main_c_37
  let main_v98 : IVec S_ 1 := andi main_v93 main_v97
  let main_v99 : FVec F S50 .f32 := Host.absf main_arg22
  let main_cst_38 : FVec F S_ .f32 := constant S_ .f32 0x7F800000#32
  let main_v100 : FVec F S50 .f32 := broadcastInDim S50 ![] bcast_S_S50 main_cst_38
  let main_v101 : IVec S50 1 := cmpf .olt main_v99 main_v100
  let main_c_39 : IVec S_ 1 := constantI S_ 1 1#1
  fn_part6 (F := F) main_v98 main_v101 main_c_39

def fn_part4 {F : FTy → Type} [FloatOps F] (main_arg16 : FVec F S16 .f32) (main_arg17 : FVec F S8x16 .f32) (main_arg18 : FVec F S8 .f32) (main_arg19 : FVec F S4x8 .f32) (main_arg20 : FVec F S4 .f32) (main_arg21 : FVec F S50x4 .f32) (main_arg22 : FVec F S50 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S8x16 .f32 := Host.absf main_arg17
  let main_cst_28 : FVec F S_ .f32 := constant S_ .f32 0x7F800000#32
  let main_v75 : FVec F S8x16 .f32 := broadcastInDim S8x16 ![] bcast_S_S8x16 main_cst_28
  let main_v76 : IVec S8x16 1 := cmpf .olt main_v74 main_v75
  let main_c_29 : IVec S_ 1 := constantI S_ 1 1#1
  let main_v77 : IVec S_ 1 := (fun x v => Host.reduce IntOp.andi x v reducesTo_S8x16_S_d0_1 h_S_) main_v76 main_c_29
  let main_v78 : IVec S_ 1 := andi main_v73 main_v77
  let main_v79 : FVec F S8 .f32 := Host.absf main_arg18
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S4x8 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S32x64 .f32) (main_arg14 : FVec F S32 .f32) (main_arg15 : FVec F S16x32 .f32) (main_arg16 : FVec F S16 .f32) (main_arg17 : FVec F S8x16 .f32) (main_arg18 : FVec F S8 .f32) (main_arg19 : FVec F S4x8 .f32) (main_arg20 : FVec F S4 .f32) (main_arg21 : FVec F S50x4 .f32) (main_arg22 : FVec F S50 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S32x64 .f32 := Host.absf main_arg13
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S16x32 .f32 := Host.absf main_arg15
  let main_cst_24 : FVec F S_ .f32 := constant S_ .f32 0x7F800000#32
  let main_v65 : FVec F S16x32 .f32 := broadcastInDim S16x32 ![] bcast_S_S16x32 main_cst_24
  let main_v66 : IVec S16x32 1 := cmpf .olt main_v64 main_v65
  let main_c_25 : IVec S_ 1 := constantI S_ 1 1#1
  let main_v67 : IVec S_ 1 := (fun x v => Host.reduce IntOp.andi x v reducesTo_S16x32_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x256 .f32) (main_arg10 : FVec F S128 .f32) (main_arg11 : FVec F S64x128 .f32) (main_arg12 : FVec F S64 .f32) (main_arg13 : FVec F S32x64 .f32) (main_arg14 : FVec F S32 .f32) (main_arg15 : FVec F S16x32 .f32) (main_arg16 : FVec F S16 .f32) (main_arg17 : FVec F S8x16 .f32) (main_arg18 : FVec F S8 .f32) (main_arg19 : FVec F S4x8 .f32) (main_arg20 : FVec F S4 .f32) (main_arg21 : FVec F S50x4 .f32) (main_arg22 : FVec F S50 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128x64 .f32) (main_arg7 : FVec F S128 .f32) (main_arg8 : FVec F S128x64 .f32) (main_arg9 : FVec F S128x256 .f32) (main_arg10 : FVec F S128 .f32) (main_arg11 : FVec F S64x128 .f32) (main_arg12 : FVec F S64 .f32) (main_arg13 : FVec F S32x64 .f32) (main_arg14 : FVec F S32 .f32) (main_arg15 : FVec F S16x32 .f32) (main_arg16 : FVec F S16 .f32) (main_arg17 : FVec F S8x16 .f32) (main_arg18 : FVec F S8 .f32) (main_arg19 : FVec F S4x8 .f32) (main_arg20 : FVec F S4 .f32) (main_arg21 : FVec F S50x4 .f32) (main_arg22 : FVec F S50 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x16 .f32) (main_arg1 : IVec S2x500000 32) (main_arg2 : IVec S500000 32) (main_arg3 : FVec F S64x16 .f32) (main_arg4 : FVec F S64 .f32) (main_arg5 : FVec F S64x16 .f32) (main_arg6 : FVec F S128x64 .f32) (main_arg7 : FVec F S128 .f32) (main_arg8 : FVec F S128x64 .f32) (main_arg9 : FVec F S128x256 .f32) (main_arg10 : FVec F S128 .f32) (main_arg11 : FVec F S64x128 .f32) (main_arg12 : FVec F S64 .f32) (main_arg13 : FVec F S32x64 .f32) (main_arg14 : FVec F S32 .f32) (main_arg15 : FVec F S16x32 .f32) (main_arg16 : FVec F S16 .f32) (main_arg17 : FVec F S8x16 .f32) (main_arg18 : FVec F S8 .f32) (main_arg19 : FVec F S4x8 .f32) (main_arg20 : FVec F S4 .f32) (main_arg21 : FVec F S50x4 .f32) (main_arg22 : FVec F S50 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S64x16 .f32 := Host.absf main_arg3
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x16 : Shape := ⟨2, ![50000, 16]⟩
abbrev S2x500000 : Shape := ⟨2, ![2, 500000]⟩
abbrev S500000 : Shape := ⟨1, ![500000]⟩
abbrev S64x16 : Shape := ⟨2, ![64, 16]⟩
abbrev S64 : Shape := ⟨1, ![64]⟩
abbrev S128x64 : Shape := ⟨2, ![128, 64]⟩
abbrev S128 : Shape := ⟨1, ![128]⟩
abbrev S128x256 : Shape := ⟨2, ![128, 256]⟩
abbrev S64x128 : Shape := ⟨2, ![64, 128]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S50x4 : Shape := ⟨2, ![50, 4]⟩
abbrev S50 : Shape := ⟨1, ![50]⟩
abbrev S1x500000 : Shape := ⟨2, ![1, 500000]⟩
abbrev S_ : Shape := ⟨0, ![]⟩
abbrev S500000x1 : Shape := ⟨2, ![500000, 1]⟩
abbrev S500000x16 : Shape := ⟨2, ![500000, 16]⟩
abbrev S50000 : Shape := ⟨1, ![50000]⟩
abbrev S50000x1 : Shape := ⟨2, ![50000, 1]⟩
abbrev S16x64 : Shape := ⟨2, ![16, 64]⟩
abbrev S50000x64 : Shape := ⟨2, ![50000, 64]⟩
abbrev S10000x16 : Shape := ⟨2, ![10000, 16]⟩
abbrev S10000x1 : Shape := ⟨2, ![10000, 1]⟩
abbrev S10000x64 : Shape := ⟨2, ![10000, 64]⟩
abbrev S1x64 : Shape := ⟨2, ![1, 64]⟩
abbrev S500000x64 : Shape := ⟨2, ![500000, 64]⟩
abbrev S50000x128 : Shape := ⟨2, ![50000, 128]⟩
abbrev S10000x128 : Shape := ⟨2, ![10000, 128]⟩
abbrev S1x128 : Shape := ⟨2, ![1, 128]⟩
abbrev S500000x128 : Shape := ⟨2, ![500000, 128]⟩
abbrev S500000x256 : Shape := ⟨2, ![500000, 256]⟩
abbrev S507904x256 : Shape := ⟨2, ![507904, 256]⟩
abbrev S256x128 : Shape := ⟨2, ![256, 128]⟩
abbrev S64x32 : Shape := ⟨2, ![64, 32]⟩
abbrev S32x16 : Shape := ⟨2, ![32, 16]⟩
abbrev S16x8 : Shape := ⟨2, ![16, 8]⟩
abbrev S8x4 : Shape := ⟨2, ![8, 4]⟩
abbrev S4x50 : Shape := ⟨2, ![4, 50]⟩
abbrev S507904x50 : Shape := ⟨2, ![507904, 50]⟩
abbrev S8192x256 : Shape := ⟨2, ![8192, 256]⟩
abbrev S8192x50 : Shape := ⟨2, ![8192, 50]⟩
abbrev S8192x128 : Shape := ⟨2, ![8192, 128]⟩
abbrev S8192x64 : Shape := ⟨2, ![8192, 64]⟩
abbrev S8192x32 : Shape := ⟨2, ![8192, 32]⟩
abbrev S1x32 : Shape := ⟨2, ![1, 32]⟩
abbrev S8192x16 : Shape := ⟨2, ![8192, 16]⟩
abbrev S1x16 : Shape := ⟨2, ![1, 16]⟩
abbrev S8192x8 : Shape := ⟨2, ![8192, 8]⟩
abbrev S1x8 : Shape := ⟨2, ![1, 8]⟩
abbrev S8192x4 : Shape := ⟨2, ![8192, 4]⟩
abbrev S1x4 : Shape := ⟨2, ![1, 4]⟩
abbrev S1x50 : Shape := ⟨2, ![1, 50]⟩
abbrev S500000x50 : Shape := ⟨2, ![500000, 50]⟩

abbrev nBuf : Space → Nat
  | .hbm => 98
  | .vmem => 40
  | .smem => 0
  | _ => 0

abbrev bufTy : (tb : Table) → Fin (tcTables nBuf tb) → BufTy
  | .hbm, ⟨0, _⟩ => ⟨S50000x16, .f32⟩
  | .hbm, ⟨1, _⟩ => ⟨S2x500000, .i32⟩
  | .hbm, ⟨2, _⟩ => ⟨S500000, .i32⟩
  | .hbm, ⟨3, _⟩ => ⟨S64x16, .f32⟩
  | .hbm, ⟨4, _⟩ => ⟨S64, .f32⟩
  | .hbm, ⟨5, _⟩ => ⟨S64x16, .f32⟩
  | .hbm, ⟨6, _⟩ => ⟨S128x64, .f32⟩
  | .hbm, ⟨7, _⟩ => ⟨S128, .f32⟩
  | .hbm, ⟨8, _⟩ => ⟨S128x64, .f32⟩
  | .hbm, ⟨9, _⟩ => ⟨S128x256, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S32x64, .f32⟩
  | .hbm, ⟨14, _⟩ => ⟨S32, .f32⟩
  | .hbm, ⟨15, _⟩ => ⟨S16x32, .f32⟩
  | .hbm, ⟨16, _⟩ => ⟨S16, .f32⟩
  | .hbm, ⟨17, _⟩ => ⟨S8x16, .f32⟩
  | .hbm, ⟨18, _⟩ => ⟨S8, .f32⟩
  | .hbm, ⟨19, _⟩ => ⟨S4x8, .f32⟩
  | .hbm, ⟨20, _⟩ => ⟨S4, .f32⟩
  | .hbm, ⟨21, _⟩ => ⟨S50x4, .f32⟩
  | .hbm, ⟨22, _⟩ => ⟨S50, .f32⟩
  | .hbm, ⟨23, _⟩ => ⟨S1x500000, .i32⟩
  | .hbm, ⟨24, _⟩ => ⟨S500000, .i32⟩
  | .hbm, ⟨25, _⟩ => ⟨S1x500000, .i32⟩
  | .hbm, ⟨26, _⟩ => ⟨S500000, .i32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x16, .f32⟩
  | .hbm, ⟨36, _⟩ => ⟨S_, .f32⟩
  | .hbm, ⟨37, _⟩ => ⟨S50000x16, .f32⟩
  | .hbm, ⟨38, _⟩ => ⟨S500000x1, .i32⟩
  | .hbm, ⟨39, _⟩ => ⟨S50000x16, .f32⟩
  | .hbm, ⟨40, _⟩ => ⟨S_, .f32⟩
  | .hbm, ⟨41, _⟩ => ⟨S500000, .f32⟩
  | .hbm, ⟨42, _⟩ => ⟨S_, .f32⟩
  | .hbm, ⟨43, _⟩ => ⟨S50000, .f32⟩
  | .hbm, ⟨44, _⟩ => ⟨S500000x1, .i32⟩
  | .hbm, ⟨45, _⟩ => ⟨S50000, .f32⟩
  | .hbm, ⟨46, _⟩ => ⟨S50000x1, .f32⟩
  | .hbm, ⟨47, _⟩ => ⟨S16x64, .f32⟩
  | .hbm, ⟨48, _⟩ => ⟨S16x64, .f32⟩
  | .hbm, ⟨49, _⟩ => ⟨S50000x64, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x64, .f32⟩
  | .hbm, ⟨59, _⟩ => ⟨S_, .f32⟩
  | .hbm, ⟨60, _⟩ => ⟨S50000x64, .f32⟩
  | .hbm, ⟨61, _⟩ => ⟨S500000x1, .i32⟩
  | .hbm, ⟨62, _⟩ => ⟨S50000x64, .f32⟩
  | .hbm, ⟨63, _⟩ => ⟨S50000x1, .f32⟩
  | .hbm, ⟨64, _⟩ => ⟨S64x128, .f32⟩
  | .hbm, ⟨65, _⟩ => ⟨S64x128, .f32⟩
  | .hbm, ⟨66, _⟩ => ⟨S50000x128, .bf16⟩
  | .hbm, ⟨67, _⟩ => ⟨S_, .i32⟩
  | .hbm, ⟨68, _⟩ => ⟨S500000, .i32⟩
  | .hbm, ⟨69, _⟩ => ⟨S500000, .i1⟩
  | .hbm, ⟨70, _⟩ => ⟨S_, .i32⟩
  | .hbm, ⟨71, _⟩ => ⟨S500000, .i32⟩
  | .hbm, ⟨72, _⟩ => ⟨S500000, .i32⟩
  | .hbm, ⟨73, _⟩ => ⟨S500000, .i32⟩
  | .hbm, ⟨74, _⟩ => ⟨S500000x1, .i32⟩
  | .hbm, ⟨75, _⟩ => ⟨S500000x128, .bf16⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x128, .bf16⟩
  | .hbm, ⟨85, _⟩ => ⟨S500000x256, .bf16⟩
  | .hbm, ⟨86, _⟩ => ⟨S_, .f32⟩
  | .hbm, ⟨87, _⟩ => ⟨S_, .bf16⟩
  | .hbm, ⟨88, _⟩ => ⟨S507904x256, .bf16⟩
  | .hbm, ⟨89, _⟩ => ⟨S256x128, .f32⟩
  | .hbm, ⟨90, _⟩ => ⟨S128x64, .f32⟩
  | .hbm, ⟨91, _⟩ => ⟨S64x32, .f32⟩
  | .hbm, ⟨92, _⟩ => ⟨S32x16, .f32⟩
  | .hbm, ⟨93, _⟩ => ⟨S16x8, .f32⟩
  | .hbm, ⟨94, _⟩ => ⟨S8x4, .f32⟩
  | .hbm, ⟨95, _⟩ => ⟨S4x50, .f32⟩
  | .hbm, ⟨96, _⟩ => ⟨S507904x50, .f32⟩
  | .hbm, ⟨97, _⟩ => ⟨S500000x50, .f32⟩
  | .local _ .vmem, ⟨0, _⟩ => ⟨S10000x16, .f32⟩
  | .local _ .vmem, ⟨1, _⟩ => ⟨S10000x16, .f32⟩
  | .local _ .vmem, ⟨2, _⟩ => ⟨S10000x1, .f32⟩
  | .local _ .vmem, ⟨3, _⟩ => ⟨S10000x1, .f32⟩
  | .local _ .vmem, ⟨4, _⟩ => ⟨S10000x16, .f32⟩
  | .local _ .vmem, ⟨5, _⟩ => ⟨S10000x16, .f32⟩
  | .local _ .vmem, ⟨6, _⟩ => ⟨S16x64, .f32⟩
  | .local _ .vmem, ⟨7, _⟩ => ⟨S64, .f32⟩
  | .local _ .vmem, ⟨8, _⟩ => ⟨S16x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x128, .f32⟩
  | .local _ .vmem, ⟨18, _⟩ => ⟨S128, .f32⟩
  | .local _ .vmem, ⟨19, _⟩ => ⟨S64x128, .f32⟩
  | .local _ .vmem, ⟨20, _⟩ => ⟨S10000x128, .bf16⟩
  | .local _ .vmem, ⟨21, _⟩ => ⟨S10000x128, .bf16⟩
  | .local _ .vmem, ⟨22, _⟩ => ⟨S8192x256, .bf16⟩
  | .local _ .vmem, ⟨23, _⟩ => ⟨S8192x256, .bf16⟩
  | .local _ .vmem, ⟨24, _⟩ => ⟨S256x128, .f32⟩
  | .local _ .vmem, ⟨25, _⟩ => ⟨S128, .f32⟩
  | .local _ .vmem, ⟨26, _⟩ => ⟨S128x64, .f32⟩
  | .local _ .vmem, ⟨27, _⟩ => ⟨S64, .f32⟩
  | .local _ .vmem, ⟨28, _⟩ => ⟨S64x32, .f32⟩
  | .local _ .vmem, ⟨29, _⟩ => ⟨S32, .f32⟩
  | .local _ .vmem, ⟨30, _⟩ => ⟨S32x16, .f32⟩
  | .local _ .vmem, ⟨31, _⟩ => ⟨S16, .f32⟩
  | .local _ .vmem, ⟨32, _⟩ => ⟨S16x8, .f32⟩
  | .local _ .vmem, ⟨33, _⟩ => ⟨S8, .f32⟩
  | .local _ .vmem, ⟨34, _⟩ => ⟨S8x4, .f32⟩
  | .local _ .vmem, ⟨35, _⟩ => ⟨S4, .f32⟩
  | .local _ .vmem, ⟨36, _⟩ => ⟨S4x50, .f32⟩
  | .local _ .vmem, ⟨37, _⟩ => ⟨S50, .f32⟩
  | .local _ .vmem, ⟨38, _⟩ => ⟨S8192x50, .f32⟩
  | .local _ .vmem, ⟨39, _⟩ => ⟨S8192x50, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_6 : Ref sig .tc := ⟨.hbm, 67, rfl⟩
abbrev main_v36 : Ref sig .tc := ⟨.hbm, 68, rfl⟩
abbrev main_v37 : Ref sig .tc := ⟨.hbm, 69, rfl⟩
abbrev main_c_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_8 : Ref sig .tc := ⟨.hbm, 76, rfl⟩
abbrev main_v43 : Ref sig .tc := ⟨.hbm, 77, rfl⟩
abbrev main_v44 : Ref sig .tc := ⟨.hbm, 78, rfl⟩
abbrev main_c_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_10 : Ref sig .tc := ⟨.hbm, 86, rfl⟩
abbrev main_call0_v0 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg14_0 : Ref sig .tc := ⟨.vmem, 37, rfl⟩
abbrev cc2_stg15_0 : Ref sig .tc := ⟨.vmem, 38, rfl⟩
abbrev cc2_stg15_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem12_0 : DmaSem sig := 35
abbrev cc2_sem13_0 : DmaSem sig := 36
abbrev cc2_sem14_0 : DmaSem sig := 37
abbrev cc2_sem15_0 : DmaSem sig := 38
abbrev cc2_sem15_1 : DmaSem sig := 39

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![62], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S16x8 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S8 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S8x4 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S4 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S4x50 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S50 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S8192x50 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x16 : S_.BroadcastsInDim S50000x16 (![] : Fin 0 → Fin S50000x16.rank)
  bcast_S_S50000 : S_.BroadcastsInDim S50000 (![] : Fin 0 → Fin S50000.rank)
  shapeCasts_S50000_S50000x1 : S50000.ShapeCasts S50000x1
  transposes_S64x16_S16x64_1_0 : S64x16.Transposes [1, 0] S16x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  transposes_S128x64_S64x128_1_0 : S128x64.Transposes [1, 0] S64x128
  shapeCasts_S10000x64_S10000x64 : S10000x64.ShapeCasts S10000x64
  broadcasts_S10000x1_S10000x64 : S10000x1.Broadcasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  concatenates_S500000x128_S500000x128_S500000x256_d1 : Shape.Concatenates [S500000x128, S500000x128] S500000x256 1
  pads_S500000x256_S507904x256_079040_000 : S500000x256.Pads (![0, 0] : Fin 2 → Nat) ![7904, 0] ![0, 0] S507904x256
  h_S_ : 0 < S_.numel
  transposes_S128x256_S256x128_1_0 : S128x256.Transposes [1, 0] S256x128
  transposes_S64x128_S128x64_1_0 : S64x128.Transposes [1, 0] S128x64
  transposes_S32x64_S64x32_1_0 : S32x64.Transposes [1, 0] S64x32
  transposes_S16x32_S32x16_1_0 : S16x32.Transposes [1, 0] S32x16
  transposes_S8x16_S16x8_1_0 : S8x16.Transposes [1, 0] S16x8
  transposes_S4x8_S8x4_1_0 : S4x8.Transposes [1, 0] S8x4
  transposes_S50x4_S4x50_1_0 : S50x4.Transposes [1, 0] S4x50
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S8192x128 : S1x128.Broadcasts S8192x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S8192x64 : S1x64.Broadcasts S8192x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S8192x32 : S1x32.Broadcasts S8192x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S16_S16_0 : ∀ a, (![0] : Fin 1 → Nat) a + S16.size a ≤ S16.size a
  h_S16 : 0 < S16.numel
  shapeCasts_S16_S1x16 : S16.ShapeCasts S1x16
  broadcasts_S1x16_S8192x16 : S1x16.Broadcasts S8192x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S8_S8_0 : ∀ a, (![0] : Fin 1 → Nat) a + S8.size a ≤ S8.size a
  h_S8 : 0 < S8.numel
  shapeCasts_S8_S1x8 : S8.ShapeCasts S1x8
  broadcasts_S1x8_S8192x8 : S1x8.Broadcasts S8192x8
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S4_S4_0 : ∀ a, (![0] : Fin 1 → Nat) a + S4.size a ≤ S4.size a
  h_S4 : 0 < S4.numel
  shapeCasts_S4_S1x4 : S4.ShapeCasts S1x4
  broadcasts_S1x4_S8192x4 : S1x4.Broadcasts S8192x4
  inb_S4x50_S4x50_0_0 : ∀ a, (![0, 0] : Fin 2 → Nat) a + S4x50.size a ≤ S4x50.size a
  h_S4x50 : 0 < S4x50.numel
  shapeCasts_S4x50_S4x50 : S4x50.ShapeCasts S4x50
  inb_S50_S50_0 : ∀ a, (![0] : Fin 1 → Nat) a + S50.size a ≤ S50.size a
  h_S50 : 0 < S50.numel
  shapeCasts_S50_S1x50 : S50.ShapeCasts S1x50
  broadcasts_S1x50_S8192x50 : S1x50.Broadcasts S8192x50
  inb_S8192x50_S8192x50_0_0 : ∀ a, (![0, 0] : Fin 2 → Nat) a + S8192x50.size a ≤ S8192x50.size a
  h_S8192x50 : 0 < S8192x50.numel
  slices_S507904x50_S500000x50_0_0 : S507904x50.Slices ![0, 0] S500000x50
  gather_S50000x16_S500000x1_S500000x16_1_0_n_n_0_1_116_wf : GatherDims.WF S50000x16 S500000x1 S500000x16 [1] [0] [] [0] [] 1 ![1, 16]
  scatter_S50000x16_S500000x1_S500000x16_1_0_0_1_wf : ScatterDims.WF S50000x16 S500000x1 S500000x16 [1] [0] [0] 1
  scatter_S50000_S500000x1_S500000_n_0_0_1_wf : ScatterDims.WF S50000 S500000x1 S500000 [] [0] [0] 1
  dot_S10000x16_S16x64_S10000x64_1_0_0_1_n_n_wf : DotDims.WF S10000x16 S16x64 S10000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  dot_S10000x64_S64x128_S10000x128_1_0_0_1_n_n_wf : DotDims.WF S10000x64 S64x128 S10000x128 [1] [0] [0] [1] [] []
  gather_S50000x128_S500000x1_S500000x128_1_0_n_n_0_1_1128_wf : GatherDims.WF S50000x128 S500000x1 S500000x128 [1] [0] [] [0] [] 1 ![1, 128]
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []
  dot_S8192x64_S64x32_S8192x32_1_0_0_1_n_n_wf : DotDims.WF S8192x64 S64x32 S8192x32 [1] [0] [0] [1] [] []
  dot_S8192x32_S32x16_S8192x16_1_0_0_1_n_n_wf : DotDims.WF S8192x32 S32x16 S8192x16 [1] [0] [0] [1] [] []
  dot_S8192x16_S16x8_S8192x8_1_0_0_1_n_n_wf : DotDims.WF S8192x16 S16x8 S8192x8 [1] [0] [0] [1] [] []
  dot_S8192x8_S8x4_S8192x4_1_0_0_1_n_n_wf : DotDims.WF S8192x8 S8x4 S8192x4 [1] [0] [0] [1] [] []
  dot_S8192x4_S4x50_S8192x50_1_0_0_1_n_n_wf : DotDims.WF S8192x4 S4x50 S8192x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S50000x16.size a
  hwx0_0 : ∀ i : grid0.Coords, EltTy.bits .f32 = 32 ∨ (Rect.block (s := S50000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S50000x16.size a
  hwx0_2 : ∀ i : grid0.Coords, EltTy.bits .f32 = 32 ∨ (Rect.block (s := S50000x16) S10000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S50000x64.size a
  hwx0_6 : ∀ i : grid0.Coords, EltTy.bits .f32 = 32 ∨ (Rect.block (s := S50000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .bf16 = 32 ∨ (Rect.block (s := S50000x128) S10000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x256.size a ≤ S507904x256.size a
  hwx2_0 : ∀ i : grid2.Coords, EltTy.bits .bf16 = 32 ∨ (Rect.block (s := S507904x256) S8192x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x32.size a ≤ S64x32.size a
  hwx2_5 : ∀ i : grid2.Coords, EltTy.bits .f32 = 32 ∨ (Rect.block (s := S64x32) S64x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32.size a ≤ S32.size a
  hwx2_6 : ∀ i : grid2.Coords, EltTy.bits .f32 = 32 ∨ (Rect.block (s := S32) S32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x16.size a ≤ S32x16.size a
  hwx2_7 : ∀ i : grid2.Coords, EltTy.bits .f32 = 32 ∨ (Rect.block (s := S32x16) S32x16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S16.size a ≤ S16.size a
  hwx2_8 : ∀ i : grid2.Coords, EltTy.bits .f32 = 32 ∨ (Rect.block (s := S16) S16.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S16x8.size a ≤ S16x8.size a
  hwx2_9 : ∀ i : grid2.Coords, EltTy.bits .f32 = 32 ∨ (Rect.block (s := S16x8) S16x8.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S8.size a ≤ S8.size a
  hwx2_10 : ∀ i : grid2.Coords, EltTy.bits .f32 = 32 ∨ (Rect.block (s := S8) S8.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S8x4.size a ≤ S8x4.size a
  hwx2_11 : ∀ i : grid2.Coords, EltTy.bits .f32 = 32 ∨ (Rect.block (s := S8x4) S8x4.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S4.size a ≤ S4.size a
  hwx2_12 : ∀ i : grid2.Coords, EltTy.bits .f32 = 32 ∨ (Rect.block (s := S4) S4.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S4x50.size a ≤ S4x50.size a
  hwx2_13 : ∀ i : grid2.Coords, EltTy.bits .f32 = 32 ∨ (Rect.block (s := S4x50) S4x50.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S50.size a ≤ S50.size a
  hwx2_14 : ∀ i : grid2.Coords, EltTy.bits .f32 = 32 ∨ (Rect.block (s := S50) S50.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S8192x50.size a ≤ S507904x50.size a
  hwx2_15 : ∀ i : grid2.Coords, EltTy.bits .f32 = 32 ∨ (Rect.block (s := S507904x50) S8192x50.size (cc2_transform_15 i) (hinb2_15 i)).WholeWords (EltTy.packing .f32)

variable [Facts₀]

def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def scatter_S50000x16_S500000x1_S500000x16_1_0_0_1 : ScatterDims S50000x16 S500000x1 S500000x16 where
  updateWindowDims := [1]
  insertedWindowDims := [0]
  scatterDimsToOperandDims := [0]
  indexVectorDim := 1
  wf := scatter_S50000x16_S500000x1_S500000x16_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x8_S8x4_S8192x4_1_0_0_1_n_n : DotDims S8192x8 S8x4 S8192x4 where
  lhsContracting := [1]
  rhsContracting := [0]
  lhsNonContracting := [0]
  rhsNonContracting := [1]
  lhsBatch := []
  rhsBatch := []
  wf := dot_S8192x8_S8x4_S8192x4_1_0_0_1_n_n_wf
def dot_S8192x4_S4x50_S8192x50_1_0_0_1_n_n : DotDims S8192x4 S4x50 S8192x50 where
  lhsContracting := [1]
  rhsContracting := [0]
  lhsNonContracting := [0]
  rhsNonContracting := [1]
  lhsBatch := []
  rhsBatch := []
  wf := dot_S8192x4_S4x50_S8192x50_1_0_0_1_n_n_wf

abbrev win0_0 : Pipeline.Window sig grid0 :=
  Pipeline.Window.ofSpec (Memref.whole main_v13) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S8192x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S64x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S32x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S16.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v56) S16x8.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg18) S8.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v57) S8x4.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg20) S4.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v58) S4x50.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg22) S50.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v59) S8192x50.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S50000x16 : Shape := ⟨2, ![50000, 16]⟩
abbrev S2x500000 : Shape := ⟨2, ![2, 500000]⟩
abbrev S500000 : Shape := ⟨1, ![500000]⟩
abbrev S64x16 : Shape := ⟨2, ![64, 16]⟩
abbrev S64 : Shape := ⟨1, ![64]⟩
abbrev S128x64 : Shape := ⟨2, ![128, 64]⟩
abbrev S128 : Shape := ⟨1, ![128]⟩
abbrev S128x256 : Shape := ⟨2, ![128, 256]⟩
abbrev S64x128 : Shape := ⟨2, ![64, 128]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S50x4 : Shape := ⟨2, ![50, 4]⟩
abbrev S50 : Shape := ⟨1, ![50]⟩
abbrev S1x500000 : Shape := ⟨2, ![1, 500000]⟩
abbrev S_ : Shape := ⟨0, ![]⟩
abbrev S500000x1 : Shape := ⟨2, ![500000, 1]⟩
abbrev S500000x16 : Shape := ⟨2, ![500000, 16]⟩
abbrev S50000 : Shape := ⟨1, ![50000]⟩
abbrev S50000x1 : Shape := ⟨2, ![50000, 1]⟩
abbrev S16x64 : Shape := ⟨2, ![16, 64]⟩
abbrev S50000x64 : Shape := ⟨2, ![50000, 64]⟩
abbrev S1x64 : Shape := ⟨2, ![1, 64]⟩
abbrev S500000x64 : Shape := ⟨2, ![500000, 64]⟩
abbrev S50000x128 : Shape := ⟨2, ![50000, 128]⟩
abbrev S1x128 : Shape := ⟨2, ![1, 128]⟩
abbrev S500000x128 : Shape := ⟨2, ![500000, 128]⟩
abbrev S500000x256 : Shape := ⟨2, ![500000, 256]⟩
abbrev S256x128 : Shape := ⟨2, ![256, 128]⟩
abbrev S64x32 : Shape := ⟨2, ![64, 32]⟩
abbrev S500000x32 : Shape := ⟨2, ![500000, 32]⟩
abbrev S1x32 : Shape := ⟨2, ![1, 32]⟩
abbrev S32x16 : Shape := ⟨2, ![32, 16]⟩
abbrev S1x16 : Shape := ⟨2, ![1, 16]⟩
abbrev S16x8 : Shape := ⟨2, ![16, 8]⟩
abbrev S500000x8 : Shape := ⟨2, ![500000, 8]⟩
abbrev S1x8 : Shape := ⟨2, ![1, 8]⟩
abbrev S8x4 : Shape := ⟨2, ![8, 4]⟩
abbrev S500000x4 : Shape := ⟨2, ![500000, 4]⟩
abbrev S1x4 : Shape := ⟨2, ![1, 4]⟩
abbrev S4x50 : Shape := ⟨2, ![4, 50]⟩
abbrev S500000x50 : Shape := ⟨2, ![500000, 50]⟩
abbrev S1x50 : Shape := ⟨2, ![1, 50]⟩

abbrev nBuf : Space → Nat
  | .hbm => 170
  | .vmem => 0
  | .smem => 0
  | _ => 0

abbrev hbmTy0_0 (i : Nat) : BufTy := match i % 128 with
  | 0 => ⟨S50000x16, .f32⟩
  | 1 => ⟨S2x500000, .i32⟩
  | 2 => ⟨S500000, .i32⟩
  | 3 => ⟨S64x16, .f32⟩
  | 4 => ⟨S64, .f32⟩
  | 5 => ⟨S64x16, .f32⟩
  | 6 => ⟨S128x64, .f32⟩
  | 7 => ⟨S128, .f32⟩
  | 8 => ⟨S128x64, .f32⟩
  | 9 => ⟨S128x256, .f32⟩
  | 10 => ⟨S128, .f32⟩
  | 11 => ⟨S64x128, .f32⟩
  | 12 => ⟨S64, .f32⟩
  | 13 => ⟨S32x64, .f32⟩
  | 14 => ⟨S32, .f32⟩
  | 15 => ⟨S16x32, .f32⟩
  | 16 => ⟨S16, .f32⟩
  | 17 => ⟨S8x16, .f32⟩
  | 18 => ⟨S8, .f32⟩
  | 19 => ⟨S4x8, .f32⟩
  | 20 => ⟨S4, .f32⟩
  | 21 => ⟨S50x4, .f32⟩
  | 22 => ⟨S50, .f32⟩
  | 23 => ⟨S1x500000, .i32⟩
  | 24 => ⟨S500000, .i32⟩
  | 25 => ⟨S1x500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x16, .f32⟩
  | 36 => ⟨S_, .f32⟩
  | 37 => ⟨S50000x16, .f32⟩
  | 38 => ⟨S500000x1, .i32⟩
  | 39 => ⟨S50000x16, .f32⟩
  | 40 => ⟨S_, .f32⟩
  | 41 => ⟨S500000, .f32⟩
  | 42 => ⟨S_, .f32⟩
  | 43 => ⟨S50000, .f32⟩
  | 44 => ⟨S500000x1, .i32⟩
  | 45 => ⟨S50000, .f32⟩
  | 46 => ⟨S_, .f32⟩
  | 47 => ⟨S_, .f32⟩
  | 48 => ⟨S50000, .f32⟩
  | 49 => ⟨S50000, .f32⟩
  | 50 => ⟨S50000x1, .f32⟩
  | 51 => ⟨S50000x16, .f32⟩
  | 52 => ⟨S50000x16, .f32⟩
  | 53 => ⟨S16x64, .f32⟩
  | 54 => ⟨S50000x64, .f32⟩
  | 55 => ⟨S1x64, .f32⟩
  | 56 => ⟨S50000x64, .f32⟩
  | 57 => ⟨S50000x64, .f32⟩
  | 58 => ⟨S16x64, .f32⟩
  | 59 => ⟨S50000x64, .f32⟩
  | 60 => ⟨S50000x64, .f32⟩
  | 61 => ⟨S_, .f32⟩
  | 62 => ⟨S50000x64, .f32⟩
  | 63 => ⟨S50000x64, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x64, .f32⟩
  | 73 => ⟨S_, .f32⟩
  | 74 => ⟨S50000x64, .f32⟩
  | 75 => ⟨S500000x1, .i32⟩
  | 76 => ⟨S50000x64, .f32⟩
  | 77 => ⟨S_, .f32⟩
  | 78 => ⟨S500000, .f32⟩
  | 79 => ⟨S_, .f32⟩
  | 80 => ⟨S50000, .f32⟩
  | 81 => ⟨S500000x1, .i32⟩
  | 82 => ⟨S50000, .f32⟩
  | 83 => ⟨S_, .f32⟩
  | 84 => ⟨S_, .f32⟩
  | 85 => ⟨S50000, .f32⟩
  | 86 => ⟨S50000, .f32⟩
  | 87 => ⟨S50000x1, .f32⟩
  | 88 => ⟨S50000x64, .f32⟩
  | 89 => ⟨S50000x64, .f32⟩
  | 90 => ⟨S64x128, .f32⟩
  | 91 => ⟨S50000x128, .f32⟩
  | 92 => ⟨S1x128, .f32⟩
  | 93 => ⟨S50000x128, .f32⟩
  | 94 => ⟨S50000x128, .f32⟩
  | 95 => ⟨S64x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x128, .f32⟩
  | 119 => ⟨S500000x256, .f32⟩
  | 120 => ⟨S256x128, .f32⟩
  | 121 => ⟨S500000x128, .f32⟩
  | 122 => ⟨S1x128, .f32⟩
  | 123 => ⟨S500000x128, .f32⟩
  | 124 => ⟨S500000x128, .f32⟩
  | 125 => ⟨S_, .f32⟩
  | 126 => ⟨S500000x128, .f32⟩
  | 127 => ⟨S500000x128, .f32⟩
  | _ => ⟨S50000x16, .f32⟩

abbrev hbmTy0_1 (i : Nat) : BufTy := match i % 128 with
  | 0 => ⟨S128x64, .f32⟩
  | 1 => ⟨S500000x64, .f32⟩
  | 2 => ⟨S1x64, .f32⟩
  | 3 => ⟨S500000x64, .f32⟩
  | 4 => ⟨S500000x64, .f32⟩
  | 5 => ⟨S_, .f32⟩
  | 6 => ⟨S500000x64, .f32⟩
  | 7 => ⟨S500000x64, .f32⟩
  | 8 => ⟨S64x32, .f32⟩
  | 9 => ⟨S500000x32, .f32⟩
  | 10 => ⟨S1x32, .f32⟩
  | 11 => ⟨S500000x32, .f32⟩
  | 12 => ⟨S500000x32, .f32⟩
  | 13 => ⟨S_, .f32⟩
  | 14 => ⟨S500000x32, .f32⟩
  | 15 => ⟨S500000x32, .f32⟩
  | 16 => ⟨S32x16, .f32⟩
  | 17 => ⟨S500000x16, .f32⟩
  | 18 => ⟨S1x16, .f32⟩
  | 19 => ⟨S500000x16, .f32⟩
  | 20 => ⟨S500000x16, .f32⟩
  | 21 => ⟨S16x8, .f32⟩
  | 22 => ⟨S500000x8, .f32⟩
  | 23 => ⟨S1x8, .f32⟩
  | 24 => ⟨S500000x8, .f32⟩
  | 25 => ⟨S500000x8, .f32⟩
  | 26 => ⟨S_, .f32⟩
  | 27 => ⟨S500000x8, .f32⟩
  | 28 => ⟨S500000x8, .f32⟩
  | 29 => ⟨S8x4, .f32⟩
  | 30 => ⟨S500000x4, .f32⟩
  | 31 => ⟨S1x4, .f32⟩
  | 32 => ⟨S500000x4, .f32⟩
  | 33 => ⟨S500000x4, .f32⟩
  | 34 => ⟨S_, .f32⟩
  | 35 => ⟨S500000x4, .f32⟩
  | 36 => ⟨S500000x4, .f32⟩
  | 37 => ⟨S4x50, .f32⟩
  | 38 => ⟨S500000x50, .f32⟩
  | 39 => ⟨S1x50, .f32⟩
  | 40 => ⟨S500000x50, .f32⟩
  | 41 => ⟨S500000x50, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_call1_cst : Ref sig .tc := ⟨.hbm, 61, rfl⟩
abbrev main_call1_v0 : Ref sig .tc := ⟨.hbm, 62, rfl⟩
abbrev main_v30 : Ref sig .tc := ⟨.hbm, 63, rfl⟩
abbrev main_c_4 : Ref sig .tc := ⟨.hbm, 64, rfl⟩
abbrev main_v31 : Ref sig .tc := ⟨.hbm, 65, rfl⟩
abbrev main_v32 : Ref sig .tc := ⟨.hbm, 66, rfl⟩
abbrev main_c_5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_6 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_7 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_9 : Ref sig .tc := ⟨.hbm, 83, rfl⟩
abbrev main_call2_v0 : Ref sig .tc := ⟨.hbm, 84, rfl⟩
abbrev main_call2_v1 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call3_cst : Ref sig .tc := ⟨.hbm, 98, rfl⟩
abbrev main_call3_v0 : Ref sig .tc := ⟨.hbm, 99, rfl⟩
abbrev main_v57 : Ref sig .tc := ⟨.hbm, 100, rfl⟩
abbrev main_c_10 : Ref sig .tc := ⟨.hbm, 101, rfl⟩
abbrev main_v58 : Ref sig .tc := ⟨.hbm, 102, rfl⟩
abbrev main_v59 : Ref sig .tc := ⟨.hbm, 103, rfl⟩
abbrev main_c_11 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_12 : Ref sig .tc := ⟨.hbm, 110, rfl⟩
abbrev main_v65 : Ref sig .tc := ⟨.hbm, 111, rfl⟩
abbrev main_v66 : Ref sig .tc := ⟨.hbm, 112, rfl⟩
abbrev main_c_13 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call4_cst : Ref sig .tc := ⟨.hbm, 125, rfl⟩
abbrev main_call4_v0 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_call5_cst : Ref sig .tc := ⟨.hbm, 133, rfl⟩
abbrev main_call5_v0 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_call6_cst : Ref sig .tc := ⟨.hbm, 141, rfl⟩
abbrev main_call6_v0 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_call7_cst : Ref sig .tc := ⟨.hbm, 154, rfl⟩
abbrev main_call7_v0 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_call8_cst : Ref sig .tc := ⟨.hbm, 162, rfl⟩
abbrev main_call8_v0 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x16 : S_.BroadcastsInDim S50000x16 (![] : Fin 0 → Fin S50000x16.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  transposes_S64x16_S16x64_1_0 : S64x16.Transposes [1, 0] S16x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  concatenates_S500000x128_S500000x128_S500000x256_d1 : Shape.Concatenates [S500000x128, S500000x128] S500000x256 1
  transposes_S128x256_S256x128_1_0 : S128x256.Transposes [1, 0] S256x128
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S64x128_S128x64_1_0 : S64x128.Transposes [1, 0] S128x64
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  transposes_S32x64_S64x32_1_0 : S32x64.Transposes [1, 0] S64x32
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  transposes_S16x32_S32x16_1_0 : S16x32.Transposes [1, 0] S32x16
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  transposes_S8x16_S16x8_1_0 : S8x16.Transposes [1, 0] S16x8
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  bcast_S_S500000x8 : S_.BroadcastsInDim S500000x8 (![] : Fin 0 → Fin S500000x8.rank)
  transposes_S4x8_S8x4_1_0 : S4x8.Transposes [1, 0] S8x4
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S_S500000x4 : S_.BroadcastsInDim S500000x4 (![] : Fin 0 → Fin S500000x4.rank)
  transposes_S50x4_S4x50_1_0 : S50x4.Transposes [1, 0] S4x50
  bcast_S50_S1x50_1 : S50.BroadcastsInDim S1x50 (![1] : Fin 1 → Fin S1x50.rank)
  bcast_S1x50_S500000x50_0_1 : S1x50.BroadcastsInDim S500000x50 (![0, 1] : Fin 2 → Fin S500000x50.rank)
  gather_S50000x16_S500000x1_S500000x16_1_0_n_n_0_1_116_wf : GatherDims.WF S50000x16 S500000x1 S500000x16 [1] [0] [] [0] [] 1 ![1, 16]
  scatter_S50000x16_S500000x1_S500000x16_1_0_0_1_wf : ScatterDims.WF S50000x16 S500000x1 S500000x16 [1] [0] [0] 1
  scatter_S50000_S500000x1_S500000_n_0_0_1_wf : ScatterDims.WF S50000 S500000x1 S500000 [] [0] [0] 1
  dot_S50000x16_S16x64_S50000x64_1_0_0_1_n_n_wf : DotDims.WF S50000x16 S16x64 S50000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  dot_S50000x64_S64x128_S50000x128_1_0_0_1_n_n_wf : DotDims.WF S50000x64 S64x128 S50000x128 [1] [0] [0] [1] [] []
  gather_S50000x128_S500000x1_S500000x128_1_0_n_n_0_1_1128_wf : GatherDims.WF S50000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x64_S500000x64_1_0_0_1_n_n_wf : DotDims.WF S500000x128 S128x64 S500000x64 [1] [0] [0] [1] [] []
  dot_S500000x64_S64x32_S500000x32_1_0_0_1_n_n_wf : DotDims.WF S500000x64 S64x32 S500000x32 [1] [0] [0] [1] [] []
  dot_S500000x32_S32x16_S500000x16_1_0_0_1_n_n_wf : DotDims.WF S500000x32 S32x16 S500000x16 [1] [0] [0] [1] [] []
  dot_S500000x16_S16x8_S500000x8_1_0_0_1_n_n_wf : DotDims.WF S500000x16 S16x8 S500000x8 [1] [0] [0] [1] [] []
  dot_S500000x8_S8x4_S500000x4_1_0_0_1_n_n_wf : DotDims.WF S500000x8 S8x4 S500000x4 [1] [0] [0] [1] [] []
  dot_S500000x4_S4x50_S500000x50_1_0_0_1_n_n_wf : DotDims.WF S500000x4 S4x50 S500000x50 [1] [0] [0] [1] [] []

variable [Facts₀]

def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def scatter_S50000x16_S500000x1_S500000x16_1_0_0_1 : ScatterDims S50000x16 S500000x1 S500000x16 where
  updateWindowDims := [1]
  insertedWindowDims := [0]
  scatterDimsToOperandDims := [0]
  indexVectorDim := 1
  wf := scatter_S50000x16_S500000x1_S500000x16_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x32_S500000x32_1_0_0_1_n_n : DotDims S500000x64 S64x32 S500000x32 where
  lhsContracting := [1]
  rhsContracting := [0]
  lhsNonContracting := [0]
  rhsNonContracting := [1]
  lhsBatch := []
  rhsBatch := []
  wf := dot_S500000x64_S64x32_S500000x32_1_0_0_1_n_n_wf
def dot_S500000x32_S32x16_S500000x16_1_0_0_1_n_n : DotDims S500000x32 S32x16 S500000x16 where
  lhsContracting := [1]
  rhsContracting := [0]
  lhsNonContracting := [0]
  rhsNonContracting := [1]
  lhsBatch := []
  rhsBatch := []
  wf := dot_S500000x32_S32x16_S500000x16_1_0_0_1_n_n_wf
def dot_S500000x16_S16x8_S500000x8_1_0_0_1_n_n : DotDims S500000x16 S16x8 S500000x8 where
  lhsContracting := [1]
  rhsContracting := [0]
  lhsNonContracting := [0]
  rhsNonContracting := [1]
  lhsBatch := []
  rhsBatch := []
  wf := dot_S500000x16_S16x8_S500000x8_1_0_0_1_n_n_wf
def dot_S500000x8_S8x4_S500000x4_1_0_0_1_n_n : DotDims S500000x8 S8x4 S500000x4 where
  lhsContracting := [1]
  rhsContracting := [0]
  lhsNonContracting := [0]
  rhsNonContracting := [1]
  lhsBatch := []
  rhsBatch := []
  wf := dot_S500000x8_S8x4_S500000x4_1_0_0_1_n_n_wf
def dot_S500000x4_S4x50_S500000x50_1_0_0_1_n_n : DotDims S500000x4 S4x50 S500000x50 where
  lhsContracting := [1]
  rhsContracting := [0]
  lhsNonContracting := [0]
  rhsNonContracting := [1]
  lhsBatch := []
  rhsBatch := []
  wf := dot_S500000x4_S4x50_S500000x50_1_0_0_1_n_n_wf

class Facts : Prop extends Facts₀ where

variable [Facts]
-- ==== Proof.Blocks2.lean ====
/-
  The third kernel call, tile by tile. The grid has 62 points; point t works on rows 8192·t … 8192·t + 8191 of the
  (zero-padded, 507904-row) edge features: its block of the features is those rows, the seven weight matrices and
  seven biases are read whole at every point, and what the point writes back to rows 8192·t … of the result is the
  body's value of those blocks. The 62 row tiles fill the 507904 rows.
-/
import proofs.«401488_j72980084293699_3_alg».proof.Proof.Gen.KernelIdeal.Frame
import Idealize.ShloMosaic.Lib.Pipeline.Value
import Idealize.ShloMosaic.Lib.ValueIdx

set_option maxRecDepth 16384

noncomputable section

namespace Cert.Bridge.R2

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem off2_zero : (![0, 0] : Fin 2 → Nat) = fun _ => 0 := funext fun a => by fin_cases a <;> rfl
theorem off1_zero : (![0] : Fin 1 → Nat) = fun _ => 0 := funext fun a => by fin_cases a <;> rfl

/-- The printed index maps over the 62 points: the features' row tile moves with the result's and stays at column
    block 0; the result's row tile is one of 0 … 61 at column block 0. -/
theorem idx2 : ∀ t : Fin cfg2.N,
    win2_0.index t (0 : Fin 2) = win2_15.index t (0 : Fin 2) ∧ win2_0.index t (1 : Fin 2) = 0
    ∧ win2_15.index t (0 : Fin 2) ≤ 61 ∧ win2_15.index t (1 : Fin 2) = 0 :=
  (by decide +kernel : ∀ t : Fin grid2.N, _)

/-- Every row tile is some point's. -/
theorem onto2 : ∀ q0 : Fin 62, ∃ t : Fin cfg2.N, win2_15.index t = ![q0.val, 0] :=
  (by decide +kernel : ∀ q0 : Fin 62, ∃ t : Fin grid2.N, win2_15.index t = ![q0.val, 0])

/-- The array row that row p of point t's tile is. -/
def row2 (t : Fin cfg2.N) (p : Fin 8192) : Fin 507904 :=
  ⟨win2_15.index t (0 : Fin 2) * 8192 + p.val, by
    have h := (idx2 t).2.2.1
    have hp := p.isLt
    omega⟩

theorem row2_val (t : Fin cfg2.N) (p : Fin 8192) : (row2 t p).val = win2_15.index t (0 : Fin 2) * 8192 + p.val := rfl

/-- Entry (p, q) of point t's result tile sits at (row2 t p, q) of the result array. -/
theorem emb2_15 (t : Fin cfg2.N) (p : Fin 8192) (q : Fin 50) :
    ((cfg2.win 15).blk t).view.emb (ix2 p q) = ix2 (row2 t p) q := by
  obtain ⟨-, -, -, e1⟩ := idx2 t
  funext a; apply Fin.ext
  match a with
  | ⟨0, _⟩ => show win2_15.index t (0 : Fin 2) * 8192 + 1 * p.val = win2_15.index t (0 : Fin 2) * 8192 + p.val; omega
  | ⟨1, _⟩ => show win2_15.index t (1 : Fin 2) * 50 + 1 * q.val = q.val; omega

/-- Row p of point t's block of the features is row (row2 t p) of the padded feature array. -/
theorem iblk2_0 (c : Dev nD) (t : Fin cfg2.N) (p : Fin 8192) (k : Fin 256) :
    iblk2 V c 0 t (ix2 p k) = V c main_v51 (ix2 (row2 t p) k) := by
  obtain ⟨e0, e1, -, -⟩ := idx2 t
  show V c main_v51 (((cfg2.win 0).blk t).view.emb (ix2 p k)) = _
  refine congrArg (V c main_v51) ?_
  funext a; apply Fin.ext
  match a with
  | ⟨0, _⟩ => show win2_0.index t (0 : Fin 2) * 8192 + 1 * p.val = win2_15.index t (0 : Fin 2) * 8192 + p.val; omega
  | ⟨1, _⟩ => show win2_0.index t (1 : Fin 2) * 256 + 1 * k.val = k.val; omega

/-- What point t writes back is the body's value of the point's input blocks. -/
theorem flushed2_15 (c : Dev nD) (t : Fin cfg2.N) :
    (dat2 V c).flushed 15 t
      = k2_pay1 (k2_pay2 (iblk2 V c 0 t) (iblk2 V c 1 t) (iblk2 V c 2 t) (iblk2 V c 3 t) (iblk2 V c 4 t) (iblk2 V c 5 t) (iblk2 V c 6 t) (iblk2 V c 7 t) (iblk2 V c 8 t))
          (iblk2 V c 9 t) (iblk2 V c 10 t) (iblk2 V c 11 t) (iblk2 V c 12 t) (iblk2 V c 13 t) (iblk2 V c 14 t) := by
  show (cfg2.win 15).cut (grid2.coords t) ((dat2 V c).after 15 t) = _
  rw [after2_15]
  unfold out2_15
  rw [View.canon_unit_zero off2_zero]
  simp only [View.ld_unit_zero (S := S8192x256) off2_zero, View.ld_unit_zero (S := S256x128) off2_zero,
    View.ld_unit_zero (S := S128x64) off2_zero, View.ld_unit_zero (S := S64x32) off2_zero, View.ld_unit_zero (S := S32x16) off2_zero,
    View.ld_unit_zero (S := S16x8) off2_zero, View.ld_unit_zero (S := S8x4) off2_zero, View.ld_unit_zero (S := S4x50) off2_zero,
    View.ld_unit_zero (S := S128) off1_zero, View.ld_unit_zero (S := S64) off1_zero, View.ld_unit_zero (S := S32) off1_zero,
    View.ld_unit_zero (S := S16) off1_zero, View.ld_unit_zero (S := S8) off1_zero, View.ld_unit_zero (S := S4) off1_zero,
    View.ld_unit_zero (S := S50) off1_zero]
  rfl

/-- An index of the result array is in point t's block iff its row is in the point's row tile. -/
theorem mem_blk2_15 (t : Fin cfg2.N) (i : S507904x50.Idx) :
    i ∈ ((cfg2.win 15).blk t).view.set ↔ ∀ a : Fin 2, win2_15.index t a * S8192x50.size a ≤ (i a).val ∧ (i a).val < win2_15.index t a * S8192x50.size a + S8192x50.size a := by
  show i ∈ ((View.whole main_v59).slice (win2_15.rect t)).set ↔ _
  rw [View.set_slice_whole, Rect.mem_set_unit]
  exact Iff.rfl

/-- The 62 row tiles fill the result array. -/
theorem cover2_arr (i : S507904x50.Idx) : ∃ t : Fin cfg2.N, (cfg2.win 15).flush t = true ∧ i ∈ ((cfg2.win 15).blk t).view.set := by
  have hi0 : (i 0).val < 507904 := (i 0).isLt
  have hi1 : (i 1).val < 50 := (i 1).isLt
  obtain ⟨t, ht⟩ := onto2 ⟨(i 0).val / 8192, by omega⟩
  have q0 : win2_15.index t (0 : Fin 2) = (i 0).val / 8192 := congrFun ht 0
  have q1 : win2_15.index t (1 : Fin 2) = 0 := congrFun ht 1
  refine ⟨t, flush2_15 t, ?_⟩
  rw [mem_blk2_15]
  intro a
  match a with
  | ⟨0, _⟩ => show win2_15.index t (0 : Fin 2) * 8192 ≤ (i 0).val ∧ (i 0).val < win2_15.index t (0 : Fin 2) * 8192 + 8192; omega
  | ⟨1, _⟩ => show win2_15.index t (1 : Fin 2) * 50 ≤ (i 1).val ∧ (i 1).val < win2_15.index t (1 : Fin 2) * 50 + 50; omega

end Cert.Bridge.R2

end
-- ==== Proof.Blocks2Whole.lean ====
/-
  The seven weight matrices and seven biases of the per-edge network are read whole at every grid point of the
  third kernel call: their block index is 0 on every axis at every point, so a block's entry y is the array's entry y.
-/
import proofs.«401488_j72980084293699_3_alg».proof.Proof.Gen.KernelIdeal.Frame
import Idealize.ShloMosaic.Lib.Pipeline.Value

set_option maxRecDepth 16384

noncomputable section

namespace Cert.Bridge.R2

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- Every weight and bias window stays at block 0 on every axis, at each of the 62 points. -/
theorem idxw2 : ∀ t : Fin cfg2.N,
    (∀ a : Fin 2, win2_1.index t a = 0)
    ∧ (∀ a : Fin 1, win2_2.index t a = 0)
    ∧ (∀ a : Fin 2, win2_3.index t a = 0)
    ∧ (∀ a : Fin 1, win2_4.index t a = 0)
    ∧ (∀ a : Fin 2, win2_5.index t a = 0)
    ∧ (∀ a : Fin 1, win2_6.index t a = 0)
    ∧ (∀ a : Fin 2, win2_7.index t a = 0)
    ∧ (∀ a : Fin 1, win2_8.index t a = 0)
    ∧ (∀ a : Fin 2, win2_9.index t a = 0)
    ∧ (∀ a : Fin 1, win2_10.index t a = 0)
    ∧ (∀ a : Fin 2, win2_11.index t a = 0)
    ∧ (∀ a : Fin 1, win2_12.index t a = 0)
    ∧ (∀ a : Fin 2, win2_13.index t a = 0)
    ∧ (∀ a : Fin 1, win2_14.index t a = 0) :=
  (by decide +kernel : ∀ t : Fin grid2.N, _)

theorem iblk2_1 (c : Dev nD) (t : Fin cfg2.N) : iblk2 V c 1 t = V c main_v52 := by
  obtain ⟨e, -⟩ := idxw2 t
  funext y
  show V c main_v52 (((cfg2.win 1).blk t).view.emb y) = V c main_v52 y
  exact congrArg (V c main_v52) (funext fun a => Fin.ext (Window.rect_emb_val_of_index_zero win2_1 t a (e a) y))
theorem iblk2_2 (c : Dev nD) (t : Fin cfg2.N) : iblk2 V c 2 t = V c main_arg10 := by
  obtain ⟨-, e, -⟩ := idxw2 t
  funext y
  show V c main_arg10 (((cfg2.win 2).blk t).view.emb y) = V c main_arg10 y
  exact congrArg (V c main_arg10) (funext fun a => Fin.ext (Window.rect_emb_val_of_index_zero win2_2 t a (e a) y))
theorem iblk2_3 (c : Dev nD) (t : Fin cfg2.N) : iblk2 V c 3 t = V c main_v53 := by
  obtain ⟨-, -, e, -⟩ := idxw2 t
  funext y
  show V c main_v53 (((cfg2.win 3).blk t).view.emb y) = V c main_v53 y
  exact congrArg (V c main_v53) (funext fun a => Fin.ext (Window.rect_emb_val_of_index_zero win2_3 t a (e a) y))
theorem iblk2_4 (c : Dev nD) (t : Fin cfg2.N) : iblk2 V c 4 t = V c main_arg12 := by
  obtain ⟨-, -, -, e, -⟩ := idxw2 t
  funext y
  show V c main_arg12 (((cfg2.win 4).blk t).view.emb y) = V c main_arg12 y
  exact congrArg (V c main_arg12) (funext fun a => Fin.ext (Window.rect_emb_val_of_index_zero win2_4 t a (e a) y))
theorem iblk2_5 (c : Dev nD) (t : Fin cfg2.N) : iblk2 V c 5 t = V c main_v54 := by
  obtain ⟨-, -, -, -, e, -⟩ := idxw2 t
  funext y
  show V c main_v54 (((cfg2.win 5).blk t).view.emb y) = V c main_v54 y
  exact congrArg (V c main_v54) (funext fun a => Fin.ext (Window.rect_emb_val_of_index_zero win2_5 t a (e a) y))
theorem iblk2_6 (c : Dev nD) (t : Fin cfg2.N) : iblk2 V c 6 t = V c main_arg14 := by
  obtain ⟨-, -, -, -, -, e, -⟩ := idxw2 t
  funext y
  show V c main_arg14 (((cfg2.win 6).blk t).view.emb y) = V c main_arg14 y
  exact congrArg (V c main_arg14) (funext fun a => Fin.ext (Window.rect_emb_val_of_index_zero win2_6 t a (e a) y))
theorem iblk2_7 (c : Dev nD) (t : Fin cfg2.N) : iblk2 V c 7 t = V c main_v55 := by
  obtain ⟨-, -, -, -, -, -, e, -⟩ := idxw2 t
  funext y
  show V c main_v55 (((cfg2.win 7).blk t).view.emb y) = V c main_v55 y
  exact congrArg (V c main_v55) (funext fun a => Fin.ext (Window.rect_emb_val_of_index_zero win2_7 t a (e a) y))
theorem iblk2_8 (c : Dev nD) (t : Fin cfg2.N) : iblk2 V c 8 t = V c main_arg16 := by
  obtain ⟨-, -, -, -, -, -, -, e, -⟩ := idxw2 t
  funext y
  show V c main_arg16 (((cfg2.win 8).blk t).view.emb y) = V c main_arg16 y
  exact congrArg (V c main_arg16) (funext fun a => Fin.ext (Window.rect_emb_val_of_index_zero win2_8 t a (e a) y))
theorem iblk2_9 (c : Dev nD) (t : Fin cfg2.N) : iblk2 V c 9 t = V c main_v56 := by
  obtain ⟨-, -, -, -, -, -, -, -, e, -⟩ := idxw2 t
  funext y
  show V c main_v56 (((cfg2.win 9).blk t).view.emb y) = V c main_v56 y
  exact congrArg (V c main_v56) (funext fun a => Fin.ext (Window.rect_emb_val_of_index_zero win2_9 t a (e a) y))
theorem iblk2_10 (c : Dev nD) (t : Fin cfg2.N) : iblk2 V c 10 t = V c main_arg18 := by
  obtain ⟨-, -, -, -, -, -, -, -, -, e, -⟩ := idxw2 t
  funext y
  show V c main_arg18 (((cfg2.win 10).blk t).view.emb y) = V c main_arg18 y
  exact congrArg (V c main_arg18) (funext fun a => Fin.ext (Window.rect_emb_val_of_index_zero win2_10 t a (e a) y))
theorem iblk2_11 (c : Dev nD) (t : Fin cfg2.N) : iblk2 V c 11 t = V c main_v57 := by
  obtain ⟨-, -, -, -, -, -, -, -, -, -, e, -⟩ := idxw2 t
  funext y
  show V c main_v57 (((cfg2.win 11).blk t).view.emb y) = V c main_v57 y
  exact congrArg (V c main_v57) (funext fun a => Fin.ext (Window.rect_emb_val_of_index_zero win2_11 t a (e a) y))
theorem iblk2_12 (c : Dev nD) (t : Fin cfg2.N) : iblk2 V c 12 t = V c main_arg20 := by
  obtain ⟨-, -, -, -, -, -, -, -, -, -, -, e, -⟩ := idxw2 t
  funext y
  show V c main_arg20 (((cfg2.win 12).blk t).view.emb y) = V c main_arg20 y
  exact congrArg (V c main_arg20) (funext fun a => Fin.ext (Window.rect_emb_val_of_index_zero win2_12 t a (e a) y))
theorem iblk2_13 (c : Dev nD) (t : Fin cfg2.N) : iblk2 V c 13 t = V c main_v58 := by
  obtain ⟨-, -, -, -, -, -, -, -, -, -, -, -, e, -⟩ := idxw2 t
  funext y
  show V c main_v58 (((cfg2.win 13).blk t).view.emb y) = V c main_v58 y
  exact congrArg (V c main_v58) (funext fun a => Fin.ext (Window.rect_emb_val_of_index_zero win2_13 t a (e a) y))
theorem iblk2_14 (c : Dev nD) (t : Fin cfg2.N) : iblk2 V c 14 t = V c main_arg22 := by
  obtain ⟨-, -, -, -, -, -, -, -, -, -, -, -, -, e⟩ := idxw2 t
  funext y
  show V c main_arg22 (((cfg2.win 14).blk t).view.emb y) = V c main_arg22 y
  exact congrArg (V c main_arg22) (funext fun a => Fin.ext (Window.rect_emb_val_of_index_zero win2_14 t a (e a) y))

end Cert.Bridge.R2

end
-- ==== Proof.Blocks1.lean ====
/-
  The second kernel call, tile by tile. The grid has five points; point t works on rows 10000·t … 10000·t + 9999:
  its blocks of the neighbour sums, of the count column and of the first hidden layer are those rows of their arrays, the
  two weight matrices and the bias are read whole at every point, and what the point writes back to rows
  10000·t … of the result is the body's value of those blocks. The five row tiles fill the 50000 rows.
-/
import proofs.«401488_j72980084293699_3_alg».proof.Proof.Gen.KernelIdeal.Frame
import Idealize.ShloMosaic.Lib.Pipeline.Value
import Idealize.ShloMosaic.Lib.ValueIdx

set_option maxRecDepth 16384

noncomputable section

namespace Cert.Bridge.R1

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem off2_zero : (![0, 0] : Fin 2 → Nat) = fun _ => 0 := funext fun a => by fin_cases a <;> rfl
theorem off1_zero : (![0] : Fin 1 → Nat) = fun _ => 0 := funext fun a => by fin_cases a <;> rfl

/-- The printed index maps over the five points: the three row-tiled operands move with the result's row tile and
    stay at column block 0; the weights and the bias stay at block 0; the result's row tile is one of 0 … 4. -/
theorem idx1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) ≤ 4 ∧ win1_6.index t (1 : Fin 2) = 0 :=
  (by decide +kernel : ∀ t : Fin grid1.N, _)

/-- Every row tile is some point's. -/
theorem onto1 : ∀ q0 : Fin 5, ∃ t : Fin cfg1.N, win1_6.index t = ![q0.val, 0] :=
  (by decide +kernel : ∀ q0 : Fin 5, ∃ t : Fin grid1.N, win1_6.index t = ![q0.val, 0])

/-- The array row that row p of point t's tile is. -/
def row1 (t : Fin cfg1.N) (p : Fin 10000) : Fin 50000 :=
  ⟨win1_6.index t (0 : Fin 2) * 10000 + p.val, by
    have h := (idx1 t).2.2.2.2.2.2.2.2.2.2.2.1
    have hp := p.isLt
    omega⟩

/-- Entry (p, q) of point t's result tile sits at (row1 t p, q) of the result array. -/
theorem emb1_6 (t : Fin cfg1.N) (p : Fin 10000) (q : Fin 128) :
    ((cfg1.win 6).blk t).view.emb (ix2 p q) = ix2 (row1 t p) q := by
  obtain ⟨-, -, -, -, -, -, -, -, -, -, -, -, e1⟩ := idx1 t
  funext a; apply Fin.ext
  match a with
  | ⟨0, _⟩ => show win1_6.index t (0 : Fin 2) * 10000 + 1 * p.val = win1_6.index t (0 : Fin 2) * 10000 + p.val; omega
  | ⟨1, _⟩ => show win1_6.index t (1 : Fin 2) * 128 + 1 * q.val = q.val; omega

/-- Row p of point t's block of the neighbour sums is row (row1 t p) of the array. -/
theorem iblk1_0 (c : Dev nD) (t : Fin cfg1.N) (p : Fin 10000) (k : Fin 64) :
    iblk1 V c 0 t (ix2 p k) = V c main_v31 (ix2 (row1 t p) k) := by
  obtain ⟨e0, e1, -⟩ := idx1 t
  show V c main_v31 (((cfg1.win 0).blk t).view.emb (ix2 p k)) = _
  refine congrArg (V c main_v31) ?_
  funext a; apply Fin.ext
  match a with
  | ⟨0, _⟩ => show win1_0.index t (0 : Fin 2) * 10000 + 1 * p.val = win1_6.index t (0 : Fin 2) * 10000 + p.val; omega
  | ⟨1, _⟩ => show win1_0.index t (1 : Fin 2) * 64 + 1 * k.val = k.val; omega

/-- Row p of point t's block of the count column is row (row1 t p) of the column. -/
theorem iblk1_1 (c : Dev nD) (t : Fin cfg1.N) (p : Fin 10000) (k : Fin 1) :
    iblk1 V c 1 t (ix2 p k) = V c main_v32 (ix2 (row1 t p) k) := by
  obtain ⟨-, -, e0, e1, -⟩ := idx1 t
  show V c main_v32 (((cfg1.win 1).blk t).view.emb (ix2 p k)) = _
  refine congrArg (V c main_v32) ?_
  funext a; apply Fin.ext
  match a with
  | ⟨0, _⟩ => show win1_1.index t (0 : Fin 2) * 10000 + 1 * p.val = win1_6.index t (0 : Fin 2) * 10000 + p.val; omega
  | ⟨1, _⟩ => show win1_1.index t (1 : Fin 2) * 1 + 1 * k.val = k.val; omega

/-- Row p of point t's block of the first hidden layer is row (row1 t p) of the array. -/
theorem iblk1_2 (c : Dev nD) (t : Fin cfg1.N) (p : Fin 10000) (k : Fin 64) :
    iblk1 V c 2 t (ix2 p k) = V c main_v21 (ix2 (row1 t p) k) := by
  obtain ⟨-, -, -, -, e0, e1, -⟩ := idx1 t
  show V c main_v21 (((cfg1.win 2).blk t).view.emb (ix2 p k)) = _
  refine congrArg (V c main_v21) ?_
  funext a; apply Fin.ext
  match a with
  | ⟨0, _⟩ => show win1_2.index t (0 : Fin 2) * 10000 + 1 * p.val = win1_6.index t (0 : Fin 2) * 10000 + p.val; omega
  | ⟨1, _⟩ => show win1_2.index t (1 : Fin 2) * 64 + 1 * k.val = k.val; omega

/-- The weights and the bias are read whole at every point. -/
theorem iblk1_3 (c : Dev nD) (t : Fin cfg1.N) : iblk1 V c 3 t = V c main_v33 := by
  obtain ⟨-, -, -, -, -, -, e0, e1, -⟩ := idx1 t
  funext y
  show V c main_v33 (((cfg1.win 3).blk t).view.emb y) = V c main_v33 y
  refine congrArg (V c main_v33) ?_
  funext a; apply Fin.ext
  match a with
  | ⟨0, _⟩ => show win1_3.index t (0 : Fin 2) * 64 + 1 * (y 0).val = (y 0).val; omega
  | ⟨1, _⟩ => show win1_3.index t (1 : Fin 2) * 128 + 1 * (y 1).val = (y 1).val; omega
theorem iblk1_4 (c : Dev nD) (t : Fin cfg1.N) : iblk1 V c 4 t = V c main_arg7 := by
  obtain ⟨-, -, -, -, -, -, -, -, e0, -⟩ := idx1 t
  funext y
  show V c main_arg7 (((cfg1.win 4).blk t).view.emb y) = V c main_arg7 y
  refine congrArg (V c main_arg7) ?_
  funext a; apply Fin.ext
  match a with
  | ⟨0, _⟩ => show win1_4.index t (0 : Fin 1) * 128 + 1 * (y 0).val = (y 0).val; omega
theorem iblk1_5 (c : Dev nD) (t : Fin cfg1.N) : iblk1 V c 5 t = V c main_v34 := by
  obtain ⟨-, -, -, -, -, -, -, -, -, e0, e1, -⟩ := idx1 t
  funext y
  show V c main_v34 (((cfg1.win 5).blk t).view.emb y) = V c main_v34 y
  refine congrArg (V c main_v34) ?_
  funext a; apply Fin.ext
  match a with
  | ⟨0, _⟩ => show win1_5.index t (0 : Fin 2) * 64 + 1 * (y 0).val = (y 0).val; omega
  | ⟨1, _⟩ => show win1_5.index t (1 : Fin 2) * 128 + 1 * (y 1).val = (y 1).val; omega

/-- What point t writes back is the body's value of the point's input blocks. -/
theorem flushed1_6 (c : Dev nD) (t : Fin cfg1.N) :
    (dat1 V c).flushed 6 t
      = k1_pay1 (iblk1 V c 0 t) (iblk1 V c 1 t) (iblk1 V c 3 t) (iblk1 V c 4 t) (iblk1 V c 2 t) (iblk1 V c 5 t) := by
  show (cfg1.win 6).cut (grid1.coords t) ((dat1 V c).after 6 t) = _
  rw [after1_6]
  unfold out1_6
  rw [View.canon_unit_zero off2_zero]
  simp only [View.ld_unit_zero (S := S10000x64) off2_zero, View.ld_unit_zero (S := S10000x1) off2_zero,
    View.ld_unit_zero (S := S64x128) off2_zero, View.ld_unit_zero (S := S128) off1_zero]
  rfl

/-- An index of the result array is in point t's block iff its row is in the point's row tile. -/
theorem mem_blk1_6 (t : Fin cfg1.N) (i : S50000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v35).slice (win1_6.rect t)).set ↔ _
  rw [View.set_slice_whole, Rect.mem_set_unit]
  exact Iff.rfl

/-- The five row tiles fill the result array. -/
theorem cover1_arr (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := onto1 ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_blk1_6]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

end Cert.Bridge.R1

end
-- ==== Proof.Blocks0.lean ====
/-
  The first kernel call, tile by tile. The grid has five points; point t works on rows 10000·t … 10000·t + 9999:
  its blocks of the neighbour sums, of the count column and of the features are those rows of their arrays, the
  two weight matrices and the bias are read whole at every point, and what the point writes back to rows
  10000·t … of the result is the body's value of those blocks. The five row tiles fill the 50000 rows.
-/
import proofs.«401488_j72980084293699_3_alg».proof.Proof.Gen.KernelIdeal.Frame
import Idealize.ShloMosaic.Lib.Pipeline.Value
import Idealize.ShloMosaic.Lib.ValueIdx

set_option maxRecDepth 16384

noncomputable section

namespace Cert.Bridge.R0

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem off2_zero : (![0, 0] : Fin 2 → Nat) = fun _ => 0 := funext fun a => by fin_cases a <;> rfl
theorem off1_zero : (![0] : Fin 1 → Nat) = fun _ => 0 := funext fun a => by fin_cases a <;> rfl

/-- The printed index maps over the five points: the three row-tiled operands move with the result's row tile and
    stay at column block 0; the weights and the bias stay at block 0; the result's row tile is one of 0 … 4. -/
theorem idx0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) ≤ 4 ∧ win0_6.index t (1 : Fin 2) = 0 :=
  (by decide +kernel : ∀ t : Fin grid0.N, _)

/-- Every row tile is some point's. -/
theorem onto0 : ∀ q0 : Fin 5, ∃ t : Fin cfg0.N, win0_6.index t = ![q0.val, 0] :=
  (by decide +kernel : ∀ q0 : Fin 5, ∃ t : Fin grid0.N, win0_6.index t = ![q0.val, 0])

/-- The array row that row p of point t's tile is. -/
def row0 (t : Fin cfg0.N) (p : Fin 10000) : Fin 50000 :=
  ⟨win0_6.index t (0 : Fin 2) * 10000 + p.val, by
    have h := (idx0 t).2.2.2.2.2.2.2.2.2.2.2.1
    have hp := p.isLt
    omega⟩

/-- Entry (p, q) of point t's result tile sits at (row0 t p, q) of the result array. -/
theorem emb0_6 (t : Fin cfg0.N) (p : Fin 10000) (q : Fin 64) :
    ((cfg0.win 6).blk t).view.emb (ix2 p q) = ix2 (row0 t p) q := by
  obtain ⟨-, -, -, -, -, -, -, -, -, -, -, -, e1⟩ := idx0 t
  funext a; apply Fin.ext
  match a with
  | ⟨0, _⟩ => show win0_6.index t (0 : Fin 2) * 10000 + 1 * p.val = win0_6.index t (0 : Fin 2) * 10000 + p.val; omega
  | ⟨1, _⟩ => show win0_6.index t (1 : Fin 2) * 64 + 1 * q.val = q.val; omega

/-- Row p of point t's block of the neighbour sums is row (row0 t p) of the array. -/
theorem iblk0_0 (c : Dev nD) (t : Fin cfg0.N) (p : Fin 10000) (k : Fin 16) :
    iblk0 V c 0 t (ix2 p k) = V c main_v13 (ix2 (row0 t p) k) := by
  obtain ⟨e0, e1, -⟩ := idx0 t
  show V c main_v13 (((cfg0.win 0).blk t).view.emb (ix2 p k)) = _
  refine congrArg (V c main_v13) ?_
  funext a; apply Fin.ext
  match a with
  | ⟨0, _⟩ => show win0_0.index t (0 : Fin 2) * 10000 + 1 * p.val = win0_6.index t (0 : Fin 2) * 10000 + p.val; omega
  | ⟨1, _⟩ => show win0_0.index t (1 : Fin 2) * 16 + 1 * k.val = k.val; omega

/-- Row p of point t's block of the count column is row (row0 t p) of the column. -/
theorem iblk0_1 (c : Dev nD) (t : Fin cfg0.N) (p : Fin 10000) (k : Fin 1) :
    iblk0 V c 1 t (ix2 p k) = V c main_v18 (ix2 (row0 t p) k) := by
  obtain ⟨-, -, e0, e1, -⟩ := idx0 t
  show V c main_v18 (((cfg0.win 1).blk t).view.emb (ix2 p k)) = _
  refine congrArg (V c main_v18) ?_
  funext a; apply Fin.ext
  match a with
  | ⟨0, _⟩ => show win0_1.index t (0 : Fin 2) * 10000 + 1 * p.val = win0_6.index t (0 : Fin 2) * 10000 + p.val; omega
  | ⟨1, _⟩ => show win0_1.index t (1 : Fin 2) * 1 + 1 * k.val = k.val; omega

/-- Row p of point t's block of the features is row (row0 t p) of the array. -/
theorem iblk0_2 (c : Dev nD) (t : Fin cfg0.N) (p : Fin 10000) (k : Fin 16) :
    iblk0 V c 2 t (ix2 p k) = V c main_arg0 (ix2 (row0 t p) k) := by
  obtain ⟨-, -, -, -, e0, e1, -⟩ := idx0 t
  show V c main_arg0 (((cfg0.win 2).blk t).view.emb (ix2 p k)) = _
  refine congrArg (V c main_arg0) ?_
  funext a; apply Fin.ext
  match a with
  | ⟨0, _⟩ => show win0_2.index t (0 : Fin 2) * 10000 + 1 * p.val = win0_6.index t (0 : Fin 2) * 10000 + p.val; omega
  | ⟨1, _⟩ => show win0_2.index t (1 : Fin 2) * 16 + 1 * k.val = k.val; omega

/-- The weights and the bias are read whole at every point. -/
theorem iblk0_3 (c : Dev nD) (t : Fin cfg0.N) : iblk0 V c 3 t = V c main_v19 := by
  obtain ⟨-, -, -, -, -, -, e0, e1, -⟩ := idx0 t
  funext y
  show V c main_v19 (((cfg0.win 3).blk t).view.emb y) = V c main_v19 y
  refine congrArg (V c main_v19) ?_
  funext a; apply Fin.ext
  match a with
  | ⟨0, _⟩ => show win0_3.index t (0 : Fin 2) * 16 + 1 * (y 0).val = (y 0).val; omega
  | ⟨1, _⟩ => show win0_3.index t (1 : Fin 2) * 64 + 1 * (y 1).val = (y 1).val; omega
theorem iblk0_4 (c : Dev nD) (t : Fin cfg0.N) : iblk0 V c 4 t = V c main_arg4 := by
  obtain ⟨-, -, -, -, -, -, -, -, e0, -⟩ := idx0 t
  funext y
  show V c main_arg4 (((cfg0.win 4).blk t).view.emb y) = V c main_arg4 y
  refine congrArg (V c main_arg4) ?_
  funext a; apply Fin.ext
  match a with
  | ⟨0, _⟩ => show win0_4.index t (0 : Fin 1) * 64 + 1 * (y 0).val = (y 0).val; omega
theorem iblk0_5 (c : Dev nD) (t : Fin cfg0.N) : iblk0 V c 5 t = V c main_v20 := by
  obtain ⟨-, -, -, -, -, -, -, -, -, e0, e1, -⟩ := idx0 t
  funext y
  show V c main_v20 (((cfg0.win 5).blk t).view.emb y) = V c main_v20 y
  refine congrArg (V c main_v20) ?_
  funext a; apply Fin.ext
  match a with
  | ⟨0, _⟩ => show win0_5.index t (0 : Fin 2) * 16 + 1 * (y 0).val = (y 0).val; omega
  | ⟨1, _⟩ => show win0_5.index t (1 : Fin 2) * 64 + 1 * (y 1).val = (y 1).val; omega

/-- What point t writes back is the body's value of the point's input blocks. -/
theorem flushed0_6 (c : Dev nD) (t : Fin cfg0.N) :
    (dat0 V c).flushed 6 t
      = k0_pay1 (iblk0 V c 0 t) (iblk0 V c 1 t) (iblk0 V c 3 t) (iblk0 V c 4 t) (iblk0 V c 2 t) (iblk0 V c 5 t) := by
  show (cfg0.win 6).cut (grid0.coords t) ((dat0 V c).after 6 t) = _
  rw [after0_6]
  unfold out0_6
  rw [View.canon_unit_zero off2_zero]
  simp only [View.ld_unit_zero (S := S10000x16) off2_zero, View.ld_unit_zero (S := S10000x1) off2_zero,
    View.ld_unit_zero (S := S16x64) off2_zero, View.ld_unit_zero (S := S64) off1_zero]
  rfl

/-- An index of the result array is in point t's block iff its row is in the point's row tile. -/
theorem mem_blk0_6 (t : Fin cfg0.N) (i : S50000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v21).slice (win0_6.rect t)).set ↔ _
  rw [View.set_slice_whole, Rect.mem_set_unit]
  exact Iff.rfl

/-- The five row tiles fill the result array. -/
theorem cover0_arr (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ := onto0 ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk0_6]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

end Cert.Bridge.R0

end
-- ==== Proof.Host0.lean ====
/-
  What the first kernel call finds in its operands. Before it the program computes on the host: the two rows of
  the edge list (sources and destinations), for every node the SUM s of its in-neighbours' feature rows (the rows
  x[src] gathered, then added into row dst of a zero array), the COUNT cnt of its in-neighbours (ones added into
  entry dst of a zero vector), cnt laid out as a column, and the transposes of the two weight matrices. The
  reference begins with the same operations on the same arguments, so each of these arrays IS the reference's stage
  of the arguments as launched. The arguments themselves are not written.
-/
import proofs.«401488_j72980084293699_3_alg».proof.Proof.Gen.KernelIdeal.Frame
import proofs.«401488_j72980084293699_3_alg».proof.Proof.Gen.ReferenceIdeal.Read
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg)

/-- Argument 0 as launched on core `c`. -/
abbrev A0 (c : Dev nD) : (⟨S50000x16, .f32⟩ : BufTy).Contents (Elt Ideal) := m ((c : Thread nD τ).loc main_arg0)
/-- Argument 1 as launched on core `c`. -/
abbrev A1 (c : Dev nD) : (⟨S2x500000, .i32⟩ : BufTy).Contents (Elt Ideal) := m ((c : Thread nD τ).loc main_arg1)
/-- Argument 2 as launched on core `c`. -/
abbrev A2 (c : Dev nD) : (⟨S500000, .i32⟩ : BufTy).Contents (Elt Ideal) := m ((c : Thread nD τ).loc main_arg2)
/-- Argument 3 as launched on core `c`. -/
abbrev A3 (c : Dev nD) : (⟨S64x16, .f32⟩ : BufTy).Contents (Elt Ideal) := m ((c : Thread nD τ).loc main_arg3)
/-- Argument 4 as launched on core `c`. -/
abbrev A4 (c : Dev nD) : (⟨S64, .f32⟩ : BufTy).Contents (Elt Ideal) := m ((c : Thread nD τ).loc main_arg4)
/-- Argument 5 as launched on core `c`. -/
abbrev A5 (c : Dev nD) : (⟨S64x16, .f32⟩ : BufTy).Contents (Elt Ideal) := m ((c : Thread nD τ).loc main_arg5)
/-- Argument 6 as launched on core `c`. -/
abbrev A6 (c : Dev nD) : (⟨S128x64, .f32⟩ : BufTy).Contents (Elt Ideal) := m ((c : Thread nD τ).loc main_arg6)
/-- Argument 7 as launched on core `c`. -/
abbrev A7 (c : Dev nD) : (⟨S128, .f32⟩ : BufTy).Contents (Elt Ideal) := m ((c : Thread nD τ).loc main_arg7)
/-- Argument 8 as launched on core `c`. -/
abbrev A8 (c : Dev nD) : (⟨S128x64, .f32⟩ : BufTy).Contents (Elt Ideal) := m ((c : Thread nD τ).loc main_arg8)
/-- Argument 9 as launched on core `c`. -/
abbrev A9 (c : Dev nD) : (⟨S128x256, .f32⟩ : BufTy).Contents (Elt Ideal) := m ((c : Thread nD τ).loc main_arg9)
/-- Argument 10 as launched on core `c`. -/
abbrev A10 (c : Dev nD) : (⟨S128, .f32⟩ : BufTy).Contents (Elt Ideal) := m ((c : Thread nD τ).loc main_arg10)
/-- Argument 11 as launched on core `c`. -/
abbrev A11 (c : Dev nD) : (⟨S64x128, .f32⟩ : BufTy).Contents (Elt Ideal) := m ((c : Thread nD τ).loc main_arg11)
/-- Argument 12 as launched on core `c`. -/
abbrev A12 (c : Dev nD) : (⟨S64, .f32⟩ : BufTy).Contents (Elt Ideal) := m ((c : Thread nD τ).loc main_arg12)
/-- Argument 13 as launched on core `c`. -/
abbrev A13 (c : Dev nD) : (⟨S32x64, .f32⟩ : BufTy).Contents (Elt Ideal) := m ((c : Thread nD τ).loc main_arg13)
/-- Argument 14 as launched on core `c`. -/
abbrev A14 (c : Dev nD) : (⟨S32, .f32⟩ : BufTy).Contents (Elt Ideal) := m ((c : Thread nD τ).loc main_arg14)
/-- Argument 15 as launched on core `c`. -/
abbrev A15 (c : Dev nD) : (⟨S16x32, .f32⟩ : BufTy).Contents (Elt Ideal) := m ((c : Thread nD τ).loc main_arg15)
/-- Argument 16 as launched on core `c`. -/
abbrev A16 (c : Dev nD) : (⟨S16, .f32⟩ : BufTy).Contents (Elt Ideal) := m ((c : Thread nD τ).loc main_arg16)
/-- Argument 17 as launched on core `c`. -/
abbrev A17 (c : Dev nD) : (⟨S8x16, .f32⟩ : BufTy).Contents (Elt Ideal) := m ((c : Thread nD τ).loc main_arg17)
/-- Argument 18 as launched on core `c`. -/
abbrev A18 (c : Dev nD) : (⟨S8, .f32⟩ : BufTy).Contents (Elt Ideal) := m ((c : Thread nD τ).loc main_arg18)
/-- Argument 19 as launched on core `c`. -/
abbrev A19 (c : Dev nD) : (⟨S4x8, .f32⟩ : BufTy).Contents (Elt Ideal) := m ((c : Thread nD τ).loc main_arg19)
/-- Argument 20 as launched on core `c`. -/
abbrev A20 (c : Dev nD) : (⟨S4, .f32⟩ : BufTy).Contents (Elt Ideal) := m ((c : Thread nD τ).loc main_arg20)
/-- Argument 21 as launched on core `c`. -/
abbrev A21 (c : Dev nD) : (⟨S50x4, .f32⟩ : BufTy).Contents (Elt Ideal) := m ((c : Thread nD τ).loc main_arg21)
/-- Argument 22 as launched on core `c`. -/
abbrev A22 (c : Dev nD) : (⟨S50, .f32⟩ : BufTy).Contents (Elt Ideal) := m ((c : Thread nD τ).loc main_arg22)

/-! ## At the first call's entry -/

set_option maxHeartbeats 400000 in
/-- The neighbour sums. -/
theorem V1_v13 (c : Dev nD) : V1 m ρ c main_v13 = val_main_v13 (F := Ideal) (A0 m c) (A1 m c) := by
  show StableHlo.after hostOps0 (W0 m ρ c) (Proc.devRef .tc main_v13) = _
  unfold val_main_v13 val_main_v12 val_main_v11 val_main_v10 val_main_v9 val_main_v8 val_main_v7 val_main_v6 val_main_v5 val_main_v4 val_main_v3 val_main_v2 val_main_v1 val_main_v0 val_main_c val_main_c_0 val_main_cst
  after_results
  rfl

set_option maxHeartbeats 400000 in
/-- The neighbour counts, as a vector. -/
theorem W1_v17 (c : Dev nD) : W1 m ρ c (Proc.devRef .tc main_v17) = val_main_v17 (F := Ideal) (A1 m c) := by
  show StableHlo.after hostOps0 (W0 m ρ c) (Proc.devRef .tc main_v17) = _
  unfold val_main_v17 val_main_v16 val_main_v15 val_main_v14 val_main_v3 val_main_v2 val_main_cst_1 val_main_cst_2
  after_results
  rfl

set_option maxHeartbeats 400000 in
/-- The neighbour counts, as a column. -/
theorem V1_v18 (c : Dev nD) : V1 m ρ c main_v18 = shapeCast S50000x1 (val_main_v17 (F := Ideal) (A1 m c)) shapeCasts_S50000_S50000x1 := by
  show StableHlo.after hostOps0 (W0 m ρ c) (Proc.devRef .tc main_v18) = _
  unfold val_main_v17 val_main_v16 val_main_v15 val_main_v14 val_main_v3 val_main_v2 val_main_cst_1 val_main_cst_2
  after_results
  rfl

set_option maxHeartbeats 400000 in
/-- The sources and the destinations of the edges. -/
theorem W1_v1 (c : Dev nD) : W1 m ρ c (Proc.devRef .tc main_v1) = val_main_v1 (F := Ideal) (A1 m c) := by
  show StableHlo.after hostOps0 (W0 m ρ c) (Proc.devRef .tc main_v1) = _
  unfold val_main_v1 val_main_v0
  after_results
  rfl
set_option maxHeartbeats 400000 in
theorem W1_v3 (c : Dev nD) : W1 m ρ c (Proc.devRef .tc main_v3) = val_main_v3 (F := Ideal) (A1 m c) := by
  show StableHlo.after hostOps0 (W0 m ρ c) (Proc.devRef .tc main_v3) = _
  unfold val_main_v3 val_main_v2
  after_results
  rfl

set_option maxHeartbeats 400000 in
/-- The two transposed weight matrices of the first layer. -/
theorem V1_v19 (c : Dev nD) : V1 m ρ c main_v19 = val_main_v22 (F := Ideal) (A3 m c) := by
  show StableHlo.after hostOps0 (W0 m ρ c) (Proc.devRef .tc main_v19) = _
  unfold val_main_v22
  after_results
set_option maxHeartbeats 400000 in
theorem V1_v20 (c : Dev nD) : V1 m ρ c main_v20 = val_main_v27 (F := Ideal) (A5 m c) := by
  show StableHlo.after hostOps0 (W0 m ρ c) (Proc.devRef .tc main_v20) = _
  unfold val_main_v27
  after_results

/-- The arguments the first call reads are as launched. -/
theorem V1_arg0 (c : Dev nD) : V1 m ρ c main_arg0 = A0 m c := by
  show StableHlo.after hostOps0 (W0 m ρ c) (Proc.devRef .tc main_arg0) = _
  after_results
theorem V1_arg4 (c : Dev nD) : V1 m ρ c main_arg4 = A4 m c := by
  show StableHlo.after hostOps0 (W0 m ρ c) (Proc.devRef .tc main_arg4) = _
  after_results

end Cert.Bridge

end
-- ==== Proof.RowLib.lean ====
/-
  Rows of a plain matrix product. For an M×K by K×N product (contraction over the one shared axis, no batch
  axis) the entry at (p, q) is the sum over k of lhs(p, k) · rhs(k, q): it reads ONE row of the left operand.
  So a product over a tile of rows and a product over the whole array agree at every row the tile shares with
  the array, whatever the two row counts are; the accumulator of the tile's product is the zero splat, which
  adds nothing.
-/
import Idealize.ShloMosaic.PureOps.Ideal.Laws
import Idealize.ShloMosaic.Lib.ValueIdx
import Idealize.ShloMosaic.Lib.Pipeline.Value

noncomputable section

namespace Cert.RowLib

open Idealize.ShloMosaic Idealize.ShloMosaic.ValueIdx
open scoped BigOperators

/-- The contraction index of a plain product has one axis. -/
theorem plain_contr_rank (M K N : Nat) : 0 < (DotDims.plain M K N).contr.rank := Nat.zero_lt_one

/-- At output entry (p, q) and contraction index k the left operand is read at (p, k). -/
theorem plain_lhsIdx (M K N : Nat) (p : Fin M) (q : Fin N) (k : (DotDims.plain M K N).contr.Idx) :
    (DotDims.plain M K N).lhsIdx (ix2 p q) k = ix2 p (k ⟨0, plain_contr_rank M K N⟩) := by
  funext a
  match a with
  | ⟨0, _⟩ => rfl
  | ⟨1, _⟩ => rfl

/-- At output entry (p, q) and contraction index k the right operand is read at (k, q). -/
theorem plain_rhsIdx (M K N : Nat) (p : Fin M) (q : Fin N) (k : (DotDims.plain M K N).contr.Idx) :
    (DotDims.plain M K N).rhsIdx (ix2 p q) k = ix2 (k ⟨0, plain_contr_rank M K N⟩) q := by
  funext a
  match a with
  | ⟨0, _⟩ => rfl
  | ⟨1, _⟩ => rfl

/-- A tile's product into the zero accumulator, at row p of the tile, is the whole array's host product at row p'
    of the array, when row p of the tile's left operand is row p' of the array's (same right operand). Both are the
    same sum over the shared axis. -/
theorem matmul_plain_row {M M' K N : Nat} {φ₁ φ₂ : FTy} (prec prec' : Option ContractPrecision)
    (A : FVec Ideal ⟨2, ![M, K]⟩ φ₁) (A' : FVec Ideal ⟨2, ![M', K]⟩ φ₁) (B : FVec Ideal ⟨2, ![K, N]⟩ φ₂)
    (p : Fin M) (p' : Fin M') (q : Fin N) (h : ∀ k : Fin K, A (ix2 p k) = A' (ix2 p' k)) :
    matmul (DotDims.plain M K N) prec A B (constant _ .f32 0x00000000#32) (ix2 p q)
      = Host.dotGeneral (DotDims.plain M' K N) prec' A' B (ix2 p' q) := by
  simp only [matmul, Host.dotGeneral]
  rw [Ideal.matmul_constant_zero_apply, Ideal.dotGeneral_apply]
  refine Finset.sum_congr rfl fun k _ => ?_
  have e1 := plain_lhsIdx M K N p q k
  have e2 := plain_rhsIdx M K N p q k
  have e3 := plain_lhsIdx M' K N p' q k
  have e4 := plain_rhsIdx M' K N p' q k
  rw [e1, e2]
  erw [e3, e4]
  exact congrArg (fun x => x * B (ix2 (k ⟨0, plain_contr_rank M K N⟩) q)) (h (k ⟨0, plain_contr_rank M K N⟩))

end Cert.RowLib

end
-- ==== Proof.SageRows.lean ====
/-
  One row of a graph-convolution layer. For node n the layer's value is
      max( (s(n,·) / max(cnt(n), 1)) · Wlᵀ + b + x(n,·) · Wrᵀ , 0 )
  where s is the sum of the neighbours' features, cnt the number of neighbours and x the node's own features.
  The kernel computes it on a tile of rows, the reference on the whole array; row p of the tile and row n of the
  array get the same value when the tile's rows p of s, cnt and x are the array's rows n: every operation is
  either pointwise along the row or a matrix product, which reads one row of its left operand.
-/
import proofs.«401488_j72980084293699_3_alg».proof.Proof.Gen.KernelIdeal.Skeleton
import proofs.«401488_j72980084293699_3_alg».proof.Proof.Gen.ReferenceIdeal.Read
import proofs.«401488_j72980084293699_3_alg».proof.Proof.RowLib
import Idealize.ShloMosaic.Lib.ValueLayout

noncomputable section

namespace Cert.Bridge

open Idealize.ShloMosaic Idealize.ShloMosaic.ValueIdx
open Cert.KernelIdeal Cert.KernelIdeal.Gen
open Cert.ReferenceIdeal.Read
open Cert.RowLib

/-- A column spread along its rows: entry (p, c) of the result is entry (p, 0) of the column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile's side of a layer, for any sizes: M rows in the tile, M' in the whole array, K features in, N out.
    With s the neighbour sums, c the neighbour counts, x the own features, Wl and Wr the two weight matrices (already
    K×N) and bias the bias vector, entry (p, q) of
        max( (s / max(c, one)) · Wl + bias + x · Wr , zero )
    is the same expression over the whole array's row p', once row p of the normalised sums is row p' of d' and
    row p of x is row p' of x'. The two products read only those rows; the bias is read at column q; the rest is
    entrywise. -/
theorem layer_row {M M' K N : ℕ}
    (s x : FVec Ideal ⟨2, ![M, K]⟩ .f32) (c : FVec Ideal ⟨2, ![M, 1]⟩ .f32)
    (Wl Wr : FVec Ideal ⟨2, ![K, N]⟩ .f32) (bias : FVec Ideal ⟨1, ![N]⟩ .f32) (one zero : Ideal .f32)
    (d' x' : FVec Ideal ⟨2, ![M', K]⟩ .f32)
    (hb : (⟨2, ![M, 1]⟩ : Shape).Broadcasts ⟨2, ![M, K]⟩)
    (hc : (⟨1, ![N]⟩ : Shape).ShapeCasts ⟨2, ![1, N]⟩) (hbb : (⟨2, ![1, N]⟩ : Shape).Broadcasts ⟨2, ![M, N]⟩)
    (p : Fin M) (p' : Fin M') (q : Fin N)
    (hd : ∀ k : Fin K, Ideal.div (s (ix2 p k)) (max (c (ix2 p (0 : Fin 1))) one) = d' (ix2 p' k))
    (hx : ∀ k : Fin K, x (ix2 p k) = x' (ix2 p' k)) :
    maximumf
        (addf
          (addf
            (matmul (DotDims.plain M K N) none
              (divf s (broadcastTo ⟨2, ![M, K]⟩ (maximumf c (broadcast ⟨2, ![M, 1]⟩ one)) hb)) Wl
              (constant ⟨2, ![M, N]⟩ .f32 0x00000000#32))
            (broadcastTo ⟨2, ![M, N]⟩ (shapeCast ⟨2, ![1, N]⟩ bias hc) hbb))
          (matmul (DotDims.plain M K N) none x Wr (constant ⟨2, ![M, N]⟩ .f32 0x00000000#32)))
        (broadcast ⟨2, ![M, N]⟩ zero) (ix2 p q)
      = max (Host.dotGeneral (DotDims.plain M' K N) none d' Wl (ix2 p' q) + bias (ix1 q)
              + Host.dotGeneral (DotDims.plain M' K N) none x' Wr (ix2 p' q)) zero := by
  have hA : ∀ k : Fin K,
      (divf s (broadcastTo ⟨2, ![M, K]⟩ (maximumf c (broadcast ⟨2, ![M, 1]⟩ one)) hb)) (ix2 p k) = d' (ix2 p' k) :=
    fun k => by
      rw [divf_apply, broadcastTo_a1_ab_apply, maximumf_apply, broadcast_apply]
      exact hd k
  rw [maximumf_apply, addf_apply, addf_apply, broadcast_apply,
    matmul_plain_row none none _ d' Wl p p' q hA, matmul_plain_row none none x x' Wr p p' q hx,
    broadcastTo_1b_ab_apply, shapeCast_a_1a_apply]

/-- The reference's normalised neighbour sums of the first layer at (n, k): the sum at (n, k) over the count of
    node n clipped below at one. The count is read through two spreads of a vector, which land on index n. -/
theorem ref_norm0 (x0 : (⟨S50000x16, .f32⟩ : BufTy).Contents (Elt Ideal)) (x1 : (⟨S2x500000, .i32⟩ : BufTy).Contents (Elt Ideal))
    (n : Fin 50000) (k : Fin 16) :
    val_main_v21 (F := Ideal) x0 x1 (ix2 n k)
      = Ideal.div (val_main_v13 (F := Ideal) x0 x1 (ix2 n k))
          (max (FloatOps.ofBits .f32 0x3F800000#32 : Ideal .f32) (val_main_v17 (F := Ideal) x1 (ix1 n))) := by
  have e : idx_main_v19 (idx_main_v20 (ix2 n k)) = ix1 n := by
    funext a; match a with | ⟨0, _⟩ => rfl
  rw [val_main_v21_apply, val_main_v20_apply, val_main_v19_apply, val_main_v18_apply, val_main_call0_v1_apply,
    val_main_call0_v0_apply, val_main_cst_3_apply, e]
  rfl

/-- First layer (16 features in, 64 out): row p of the tile's result is row n of the reference's first hidden layer. -/
theorem sage0_row (x0 : (⟨S50000x16, .f32⟩ : BufTy).Contents (Elt Ideal)) (x1 : (⟨S2x500000, .i32⟩ : BufTy).Contents (Elt Ideal)) (x3 : (⟨S64x16, .f32⟩ : BufTy).Contents (Elt Ideal)) (x4 : (⟨S64, .f32⟩ : BufTy).Contents (Elt Ideal)) (x5 : (⟨S64x16, .f32⟩ : BufTy).Contents (Elt Ideal))
    (b0 : Vec Ideal S10000x16 .f32) (b1 : Vec Ideal S10000x1 .f32) (b2 : Vec Ideal S10000x16 .f32)
    (b3 : Vec Ideal S16x64 .f32) (b4 : Vec Ideal S64 .f32) (b5 : Vec Ideal S16x64 .f32)
    (p : Fin 10000) (n : Fin 50000)
    (h0 : ∀ k : Fin 16, b0 (ix2 p k) = val_main_v13 (F := Ideal) x0 x1 (ix2 n k))
    (h1 : b1 (ix2 p (0 : Fin 1)) = val_main_v17 (F := Ideal) x1 (ix1 n))
    (h2 : ∀ k : Fin 16, b2 (ix2 p k) = x0 (ix2 n k))
    (h3 : b3 = val_main_v22 (F := Ideal) x3) (h4 : b4 = x4) (h5 : b5 = val_main_v27 (F := Ideal) x5) (q : Fin 64) :
    k0_pay1 (F := Ideal) b0 b1 b3 b4 b2 b5 (ix2 p q) = val_main_v30 (F := Ideal) x0 x1 x3 x4 x5 (ix2 n q) := by
  -- the bias is read through two spreads, which land on column q
  have e : idx_main_v24 (idx_main_v25 (ix2 n q)) = ix1 q := by
    funext a; match a with | ⟨0, _⟩ => rfl
  rw [h3, h4, h5]
  unfold k0_pay1
  simp only [shapeCast_self]
  refine (layer_row b0 b2 b1 _ _ _ _ _ (val_main_v21 (F := Ideal) x0 x1) x0 _ _ _ p n q (fun k => ?_) h2).trans ?_
  · -- the normalised sums: same quotient, the clip's two arguments in the other order
    rw [ref_norm0, h0, h1, max_comm]
  · -- the reference's layer, read at (n, q), is the same expression
    rw [val_main_v30_apply, val_main_v29_apply, val_main_v26_apply, val_main_v25_apply, val_main_v24_apply,
      val_main_call1_v0_apply, val_main_call1_cst_apply, e]
    rfl

/-- The reference's normalised neighbour sums of the second layer at (n, k): the sum at (n, k) over the count of
    node n clipped below at one. -/
theorem ref_norm1 (x0 : (⟨S50000x16, .f32⟩ : BufTy).Contents (Elt Ideal)) (x1 : (⟨S2x500000, .i32⟩ : BufTy).Contents (Elt Ideal)) (x3 : (⟨S64x16, .f32⟩ : BufTy).Contents (Elt Ideal)) (x4 : (⟨S64, .f32⟩ : BufTy).Contents (Elt Ideal)) (x5 : (⟨S64x16, .f32⟩ : BufTy).Contents (Elt Ideal))
    (n : Fin 50000) (k : Fin 64) :
    val_main_v48 (F := Ideal) x0 x1 x3 x4 x5 (ix2 n k)
      = Ideal.div (val_main_v40 (F := Ideal) x0 x1 x3 x4 x5 (ix2 n k))
          (max (FloatOps.ofBits .f32 0x3F800000#32 : Ideal .f32) (val_main_v44 (F := Ideal) x1 (ix1 n))) := by
  have e : idx_main_v46 (idx_main_v47 (ix2 n k)) = ix1 n := by
    funext a; match a with | ⟨0, _⟩ => rfl
  rw [val_main_v48_apply, val_main_v47_apply, val_main_v46_apply, val_main_v45_apply, val_main_call2_v1_apply,
    val_main_call2_v0_apply, val_main_cst_9_apply, e]
  rfl

/-- Second layer (64 features in, 128 out; the tile's result is narrowed to bf16, which changes no value over the
    extended reals): row p of the tile's result is row n of the reference's second hidden layer. -/
theorem sage1_row (x0 : (⟨S50000x16, .f32⟩ : BufTy).Contents (Elt Ideal)) (x1 : (⟨S2x500000, .i32⟩ : BufTy).Contents (Elt Ideal)) (x3 : (⟨S64x16, .f32⟩ : BufTy).Contents (Elt Ideal)) (x4 : (⟨S64, .f32⟩ : BufTy).Contents (Elt Ideal)) (x5 : (⟨S64x16, .f32⟩ : BufTy).Contents (Elt Ideal))
    (x6 : (⟨S128x64, .f32⟩ : BufTy).Contents (Elt Ideal)) (x7 : (⟨S128, .f32⟩ : BufTy).Contents (Elt Ideal)) (x8 : (⟨S128x64, .f32⟩ : BufTy).Contents (Elt Ideal))
    (b0 : Vec Ideal S10000x64 .f32) (b1 : Vec Ideal S10000x1 .f32) (b2 : Vec Ideal S10000x64 .f32)
    (b3 : Vec Ideal S64x128 .f32) (b4 : Vec Ideal S128 .f32) (b5 : Vec Ideal S64x128 .f32)
    (p : Fin 10000) (n : Fin 50000)
    (h0 : ∀ k : Fin 64, b0 (ix2 p k) = val_main_v40 (F := Ideal) x0 x1 x3 x4 x5 (ix2 n k))
    (h1 : b1 (ix2 p (0 : Fin 1)) = val_main_v44 (F := Ideal) x1 (ix1 n))
    (h2 : ∀ k : Fin 64, b2 (ix2 p k) = val_main_v30 (F := Ideal) x0 x1 x3 x4 x5 (ix2 n k))
    (h3 : b3 = val_main_v49 (F := Ideal) x6) (h4 : b4 = x7) (h5 : b5 = val_main_v54 (F := Ideal) x8) (q : Fin 128) :
    k1_pay1 (F := Ideal) b0 b1 b3 b4 b2 b5 (ix2 p q) = val_main_v57 (F := Ideal) x0 x1 x3 x4 x5 x6 x7 x8 (ix2 n q) := by
  -- the bias is read through two spreads, which land on column q
  have e : idx_main_v51 (idx_main_v52 (ix2 n q)) = ix1 q := by
    funext a; match a with | ⟨0, _⟩ => rfl
  rw [h3, h4, h5]
  unfold k1_pay1
  simp only [shapeCast_self]
  -- narrowing the result's format changes no value
  rw [truncf_apply]
  refine (layer_row b0 b2 b1 _ _ _ _ _ (val_main_v48 (F := Ideal) x0 x1 x3 x4 x5)
    (val_main_v30 (F := Ideal) x0 x1 x3 x4 x5) _ _ _ p n q (fun k => ?_) h2).trans ?_
  · -- the normalised sums: same quotient, the clip's two arguments in the other order
    rw [ref_norm1, h0, h1, max_comm]
  · -- the reference's layer, read at (n, q), is the same expression
    rw [val_main_v57_apply, val_main_v56_apply, val_main_v53_apply, val_main_v52_apply, val_main_v51_apply,
      val_main_call3_v0_apply, val_main_call3_cst_apply, e]
    rfl

end Cert.Bridge

end
-- ==== Proof.ColLib.lean ====
/-
  A vector laid out as a column. Casting a length-a vector to an a×1 array keeps the row-major order, so the
  column's entry (i, 0) is the vector's entry i.
-/
import Idealize.ShloMosaic.Lib.Pipeline.Value
import Idealize.ShloMosaic.Lib.ValueIdx

noncomputable section

namespace Cert.ColLib

open Idealize.ShloMosaic Idealize.ShloMosaic.ValueIdx

/-- Entry (i, u) of the column (u is 0, the only column) is entry i of the vector. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.ColLib

end
-- ==== Proof.Region0.lean ====
/-
  The first hidden layer. After the first kernel call its result array holds, at every node n and feature j,
      max( (s(n,·) / max(cnt(n), 1)) · Wlᵀ + b + x(n,·) · Wrᵀ , 0 )(j),
  the reference's first hidden layer of the arguments: each of the five row tiles is written back with the body's
  value of the tile's rows of s, cnt and x (which are the reference's, by the host operations before the call), row
  by row the reference's value; and the five tiles fill the array.
-/
import proofs.«401488_j72980084293699_3_alg».proof.Proof.Blocks0
import proofs.«401488_j72980084293699_3_alg».proof.Proof.Host0
import proofs.«401488_j72980084293699_3_alg».proof.Proof.SageRows
import proofs.«401488_j72980084293699_3_alg».proof.Proof.ColLib

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read
open Idealize.ShloMosaic.Pipeline (Dat Cfg Window)

variable (m : (ℓ : Loc nD τ sig) → Buf (Elt Ideal) ℓ) (ρ : Dev nD → PrngReg)

/-- After the first call the result array is the reference's first hidden layer of the arguments as launched. -/
theorem V2_v21 (c : Dev nD) :
    V2 m ρ c main_v21 = val_main_v30 (F := Ideal) (A0 m c) (A1 m c) (A3 m c) (A4 m c) (A5 m c) := by
  refine (hF0 m ρ c 6).symm.trans ?_
  refine (dat0 (V1 m ρ) c).arrAt_eq_of_cover 6 _ (fun t _ => ?_) R0.cover0_arr
  rw [R0.flushed0_6]
  funext j
  obtain ⟨p, q, rfl⟩ : ∃ (p : Fin 10000) (q : Fin 64), j = ix2 p q := ⟨j 0, j 1, eq_ix2 j⟩
  show _ = val_main_v30 (F := Ideal) (A0 m c) (A1 m c) (A3 m c) (A4 m c) (A5 m c) (((cfg0.win 6).blk t).view.emb (ix2 p q))
  rw [R0.emb0_6]
  exact sage0_row (A0 m c) (A1 m c) (A3 m c) (A4 m c) (A5 m c)
    (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t)
    p (R0.row0 t p)
    (fun k => (R0.iblk0_0 (V1 m ρ) c t p k).trans (congrFun (V1_v13 m ρ c) _))
    ((R0.iblk0_1 (V1 m ρ) c t p 0).trans ((congrFun (V1_v18 m ρ c) _).trans (Cert.ColLib.shapeCast_a_a1_apply _ _ _ _)))
    (fun k => (R0.iblk0_2 (V1 m ρ) c t p k).trans (congrFun (V1_arg0 m ρ c) _))
    ((R0.iblk0_3 (V1 m ρ) c t).trans (V1_v19 m ρ c)) ((R0.iblk0_4 (V1 m ρ) c t).trans (V1_arg4 m ρ c))
    ((R0.iblk0_5 (V1 m ρ) c t).trans (V1_v20 m ρ c)) q

end Cert.Bridge

end
-- ==== Proof.Host1.lean ====
/-
  What the second kernel call finds in its operands. After the first call the program gathers the rows h1[src] of
  the first hidden layer and adds them into row dst of a zero array (the neighbour sums of the hidden layer), lays
  the neighbour counts out as a column again, and transposes the second layer's two weight matrices. The reference
  does the same to its own first hidden layer, which is the kernel's (the first call's result); it computes the
  neighbour counts a second time, by the same operations on the same edge list, so the two counts are one vector.
-/
import proofs.«401488_j72980084293699_3_alg».proof.Proof.Region0
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg)

/-- The reference's second neighbour count is its first: the same operations on the same edge list. -/
theorem count_again (x1 : (⟨S2x500000, .i32⟩ : BufTy).Contents (Elt Ideal)) :
    val_main_v44 (F := Ideal) x1 = val_main_v17 (F := Ideal) x1 := by
  unfold val_main_v44 val_main_v43 val_main_v42 val_main_v41 val_main_cst_7 val_main_cst_8
    val_main_v17 val_main_v16 val_main_v15 val_main_v14 val_main_cst_1 val_main_cst_2
  rfl

/-! ## After the first call: what it did not write is as before it -/

theorem W2_v1 (c : Dev nD) : W2 m ρ c (Proc.devRef .tc main_v1) = val_main_v1 (F := Ideal) (A1 m c) :=
  (W2_of_ne m ρ c main_v1 (by decide)).trans (W1_v1 m ρ c)
theorem W2_v3 (c : Dev nD) : W2 m ρ c (Proc.devRef .tc main_v3) = val_main_v3 (F := Ideal) (A1 m c) :=
  (W2_of_ne m ρ c main_v3 (by decide)).trans (W1_v3 m ρ c)
theorem W2_v17 (c : Dev nD) : W2 m ρ c (Proc.devRef .tc main_v17) = val_main_v17 (F := Ideal) (A1 m c) :=
  (W2_of_ne m ρ c main_v17 (by decide)).trans (W1_v17 m ρ c)
theorem W2_arg6 (c : Dev nD) : W2 m ρ c (Proc.devRef .tc main_arg6) = A6 m c :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = A7 m c :=
  (W2_of_ne m ρ c main_arg7 (by decide)).trans (by
    show StableHlo.after hostOps0 (W0 m ρ c) (Proc.devRef .tc main_arg7) = _
    after_results)
theorem W2_arg8 (c : Dev nD) : W2 m ρ c (Proc.devRef .tc main_arg8) = A8 m c :=
  (W2_of_ne m ρ c main_arg8 (by decide)).trans (by
    show StableHlo.after hostOps0 (W0 m ρ c) (Proc.devRef .tc main_arg8) = _
    after_results)
/-- The first hidden layer, as the first call left it. -/
theorem W2_v21 (c : Dev nD) : W2 m ρ c (Proc.devRef .tc main_v21)
    = val_main_v30 (F := Ideal) (A0 m c) (A1 m c) (A3 m c) (A4 m c) (A5 m c) := V2_v21 m ρ c

/-! ## At the second call's entry -/

set_option maxHeartbeats 400000 in
/-- The neighbour sums of the first hidden layer. -/
theorem V3_v31 (c : Dev nD) :
    V3 m ρ c main_v31 = val_main_v40 (F := Ideal) (A0 m c) (A1 m c) (A3 m c) (A4 m c) (A5 m c) := by
  show StableHlo.after hostOps1 (W2 m ρ c) (Proc.devRef .tc main_v31) = _
  unfold val_main_v40 val_main_v39 val_main_v38 val_main_v37 val_main_v36 val_main_v35 val_main_v34 val_main_v33 val_main_v32 val_main_v31 val_main_c_4 val_main_c_5 val_main_cst_6
  after_results
  rw [W2_v1, W2_v3, W2_v21]
  rfl

set_option maxHeartbeats 400000 in
/-- The neighbour counts, as a column. -/
theorem V3_v32 (c : Dev nD) :
    V3 m ρ c main_v32 = shapeCast S50000x1 (val_main_v44 (F := Ideal) (A1 m c)) shapeCasts_S50000_S50000x1 := by
  show StableHlo.after hostOps1 (W2 m ρ c) (Proc.devRef .tc main_v32) = _
  after_results
  rw [W2_v17, count_again]
  rfl

/-- The first hidden layer is not written between the calls. -/
theorem V3_v21 (c : Dev nD) :
    V3 m ρ c main_v21 = val_main_v30 (F := Ideal) (A0 m c) (A1 m c) (A3 m c) (A4 m c) (A5 m c) := by
  show StableHlo.after hostOps1 (W2 m ρ c) (Proc.devRef .tc main_v21) = _
  after_results
  exact W2_v21 m ρ c

/-- The two transposed weight matrices of the second layer, and its bias. -/
theorem V3_v33 (c : Dev nD) : V3 m ρ c main_v33 = val_main_v49 (F := Ideal) (A6 m c) := by
  show StableHlo.after hostOps1 (W2 m ρ c) (Proc.devRef .tc main_v33) = _
  unfold val_main_v49
  after_results
  rw [W2_arg6]
theorem V3_v34 (c : Dev nD) : V3 m ρ c main_v34 = val_main_v54 (F := Ideal) (A8 m c) := by
  show StableHlo.after hostOps1 (W2 m ρ c) (Proc.devRef .tc main_v34) = _
  unfold val_main_v54
  after_results
  rw [W2_arg8]
theorem V3_arg7 (c : Dev nD) : V3 m ρ c main_arg7 = A7 m c := by
  show StableHlo.after hostOps1 (W2 m ρ c) (Proc.devRef .tc main_arg7) = _
  after_results
  exact W2_arg7 m ρ c

end Cert.Bridge

end
-- ==== Proof.Region1.lean ====
/-
  The second hidden layer. After the second kernel call its result array holds, at every node n and feature j,
      max( (s(n,·) / max(cnt(n), 1)) · Wlᵀ + b + x(n,·) · Wrᵀ , 0 )(j),
  the reference's second hidden layer of the arguments: each of the five row tiles is written back with the body's
  value of the tile's rows of s, cnt and x (here s is the sum of the neighbours' rows of the first hidden layer and x the node's own row of it; all three are the reference's, by the host operations before the call), row
  by row the reference's value; and the five tiles fill the array.
-/
import proofs.«401488_j72980084293699_3_alg».proof.Proof.Blocks1
import proofs.«401488_j72980084293699_3_alg».proof.Proof.Host1
import proofs.«401488_j72980084293699_3_alg».proof.Proof.SageRows
import proofs.«401488_j72980084293699_3_alg».proof.Proof.ColLib

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read
open Idealize.ShloMosaic.Pipeline (Dat Cfg Window)

variable (m : (ℓ : Loc nD τ sig) → Buf (Elt Ideal) ℓ) (ρ : Dev nD → PrngReg)

/-- After the second call the result array is the reference's second hidden layer of the arguments as launched. -/
theorem V4_v35 (c : Dev nD) :
    V4 m ρ c main_v35 = val_main_v57 (F := Ideal) (A0 m c) (A1 m c) (A3 m c) (A4 m c) (A5 m c) (A6 m c) (A7 m c) (A8 m c) := by
  refine (hF1 m ρ c 6).symm.trans ?_
  refine (dat1 (V3 m ρ) c).arrAt_eq_of_cover 6 _ (fun t _ => ?_) R1.cover1_arr
  rw [R1.flushed1_6]
  funext j
  obtain ⟨p, q, rfl⟩ : ∃ (p : Fin 10000) (q : Fin 128), j = ix2 p q := ⟨j 0, j 1, eq_ix2 j⟩
  show _ = val_main_v57 (F := Ideal) (A0 m c) (A1 m c) (A3 m c) (A4 m c) (A5 m c) (A6 m c) (A7 m c) (A8 m c) (((cfg1.win 6).blk t).view.emb (ix2 p q))
  rw [R1.emb1_6]
  exact sage1_row (A0 m c) (A1 m c) (A3 m c) (A4 m c) (A5 m c) (A6 m c) (A7 m c) (A8 m c)
    (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)
    p (R1.row1 t p)
    (fun k => (R1.iblk1_0 (V3 m ρ) c t p k).trans (congrFun (V3_v31 m ρ c) _))
    ((R1.iblk1_1 (V3 m ρ) c t p 0).trans ((congrFun (V3_v32 m ρ c) _).trans (Cert.ColLib.shapeCast_a_a1_apply _ _ _ _)))
    (fun k => (R1.iblk1_2 (V3 m ρ) c t p k).trans (congrFun (V3_v21 m ρ c) _))
    ((R1.iblk1_3 (V3 m ρ) c t).trans (V3_v33 m ρ c)) ((R1.iblk1_4 (V3 m ρ) c t).trans (V3_arg7 m ρ c))
    ((R1.iblk1_5 (V3 m ρ) c t).trans (V3_v34 m ρ c)) q

end Cert.Bridge

end
-- ==== Proof.Host2.lean ====
/-
  What the third kernel call finds in its operands. After the second call the program gathers the rows h2[src]
  and h2[dst] of the second hidden layer, joins them side by side into the 256 features of every edge, appends 7904
  rows of zeros (so that 62 tiles of 8192 rows cover the array), and transposes the seven weight matrices. The
  reference gathers and joins its own second hidden layer, which is the kernel's (the second call's result) — the
  kernel keeps it in a narrower float format, which over the extended reals is the same numbers — and does not pad.
  So the first 500000 rows of the kernel's features are the reference's features. (The weights and the biases are
  the neighbouring table module's.)
-/
import proofs.«401488_j72980084293699_3_alg».proof.Proof.Region1
import Idealize.ShloMosaic.Lib.StableHlo.Run
import Idealize.ShloMosaic.Lib.KernelVsHost

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg)

/-! ## After the second call: what neither it nor the operations before it wrote -/

theorem W4_v1 (c : Dev nD) : W4 m ρ c (Proc.devRef .tc main_v1) = val_main_v1 (F := Ideal) (A1 m c) :=
  (W4_of_ne m ρ c main_v1 (by decide)).trans (by
    show StableHlo.after hostOps1 (W2 m ρ c) (Proc.devRef .tc main_v1) = _
    after_results
    exact W2_v1 m ρ c)
theorem W4_v3 (c : Dev nD) : W4 m ρ c (Proc.devRef .tc main_v3) = val_main_v3 (F := Ideal) (A1 m c) :=
  (W4_of_ne m ρ c main_v3 (by decide)).trans (by
    show StableHlo.after hostOps1 (W2 m ρ c) (Proc.devRef .tc main_v3) = _
    after_results
    exact W2_v3 m ρ c)
/-- The second hidden layer, as the second call left it. -/
theorem W4_v35 (c : Dev nD) : W4 m ρ c (Proc.devRef .tc main_v35)
    = val_main_v57 (F := Ideal) (A0 m c) (A1 m c) (A3 m c) (A4 m c) (A5 m c) (A6 m c) (A7 m c) (A8 m c) := V4_v35 m ρ c

/-! ## The edge features -/

set_option maxHeartbeats 800000 in
/-- Joined side by side, the gathered rows are the reference's edge features. -/
theorem W5_v50 (c : Dev nD) : W5 m ρ c (Proc.devRef .tc main_v50)
    = val_main_v72 (F := Ideal) (A0 m c) (A1 m c) (A3 m c) (A4 m c) (A5 m c) (A6 m c) (A7 m c) (A8 m c) := by
  show StableHlo.after hostOps2 (W4 m ρ c) (Proc.devRef .tc main_v50) = _
  unfold val_main_v72 val_main_v71 val_main_v70 val_main_v69 val_main_v68 val_main_v67 val_main_v66 val_main_v65
    val_main_v64 val_main_v63 val_main_v62 val_main_v61 val_main_v60 val_main_v59 val_main_v58
    val_main_c_10 val_main_c_11 val_main_c_12 val_main_c_13
  after_results
  rw [W4_v1, W4_v3, W4_v35]
  rfl

/-- Padded below with rows of zeros, the features keep their first 500000 rows. -/
theorem W6_v51_row (c : Dev nD) (e : Fin 500000) (k : Fin 256) :
    W6 m ρ c (Proc.devRef .tc main_v51) (ix2 (⟨e.val, by have := e.isLt; omega⟩ : Fin 507904) k)
      = val_main_v72 (F := Ideal) (A0 m c) (A1 m c) (A3 m c) (A4 m c) (A5 m c) (A6 m c) (A7 m c) (A8 m c) (ix2 e k) := by
  have h50 := W5_v50 m ρ c
  show StableHlo.after hostOps2_1 (W5 m ρ c) (Proc.devRef .tc main_v51) (ix2 (⟨e.val, by have := e.isLt; omega⟩ : Fin 507904) k) = _
  generalize W5 m ρ c = W at h50 ⊢
  after_results
  show pad S507904x256 ![0, 0] ![7904, 0] ![0, 0] (W (Proc.devRef .tc main_v50)) _ pads_S500000x256_S507904x256_079040_000 h_S_
    (ix2 (⟨e.val, by have := e.isLt; omega⟩ : Fin 507904) k) = _
  rw [pad_apply_of_inside ![0, 0] ![7904, 0] ![0, 0] _ _ pads_S500000x256_S507904x256_079040_000 h_S_ _ (ix2 e k)
    (fun a => match a with
      | ⟨0, _⟩ => by show e.val = 0 + e.val * (0 + 1); omega
      | ⟨1, _⟩ => by show k.val = 0 + k.val * (0 + 1); omega)]
  exact congrFun h50 (ix2 e k)

/-- At the third call's entry the features are as padded: the transposes in between write other buffers. -/
theorem V7_v51_row (c : Dev nD) (e : Fin 500000) (k : Fin 256) :
    V7 m ρ c main_v51 (ix2 (⟨e.val, by have := e.isLt; omega⟩ : Fin 507904) k)
      = val_main_v72 (F := Ideal) (A0 m c) (A1 m c) (A3 m c) (A4 m c) (A5 m c) (A6 m c) (A7 m c) (A8 m c) (ix2 e k) := by
  have h6 := W6_v51_row m ρ c e k
  show StableHlo.after hostOps2_2 (W6 m ρ c) (Proc.devRef .tc main_v51) (ix2 (⟨e.val, by have := e.isLt; omega⟩ : Fin 507904) k) = _
  generalize W6 m ρ c = W at h6 ⊢
  after_results
  exact h6

end Cert.Bridge

end
-- ==== Proof.Host2Operands.lean ====
/-
  The weights and the biases of the per-edge network at the third kernel call's entry. An argument is never
  written, so at any boundary of the run it holds what it holds at the end, which is what it held at the launch;
  the transposes are the reference's transposes of those arguments.
-/
import proofs.«401488_j72980084293699_3_alg».proof.Proof.Host0
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- Argument 9, transposed. -/
theorem V7_v52 (c : Dev nD) : V7 m ρ c main_v52 = val_main_v73 (F := Ideal) (A9 m c) := by
  have h4 : W4 m ρ c (Proc.devRef .tc main_arg9) = A9 m c := by
    refine Eq.trans ?_ (W9_main_arg9 m ρ c)
    refine Eq.trans ?_ (show W8 m ρ c (Proc.devRef .tc main_arg9) = W9 m ρ c (Proc.devRef .tc main_arg9) from by
      show _ = StableHlo.after hostOps3 (W8 m ρ c) (Proc.devRef .tc main_arg9)
      after_results)
    refine Eq.trans ?_ (W8_of_ne m ρ c main_arg9 (by decide)).symm
    show _ = StableHlo.after hostOps2_2 (W6 m ρ c) (Proc.devRef .tc main_arg9)
    after_results
  show StableHlo.after hostOps2_2 (W6 m ρ c) (Proc.devRef .tc main_v52) = _
  unfold val_main_v73
  after_results
  rw [h4]
/-- Argument 11, transposed. -/
theorem V7_v53 (c : Dev nD) : V7 m ρ c main_v53 = val_main_v79 (F := Ideal) (A11 m c) := by
  have h4 : W4 m ρ c (Proc.devRef .tc main_arg11) = A11 m c := by
    refine Eq.trans ?_ (W9_main_arg11 m ρ c)
    refine Eq.trans ?_ (show W8 m ρ c (Proc.devRef .tc main_arg11) = W9 m ρ c (Proc.devRef .tc main_arg11) from by
      show _ = StableHlo.after hostOps3 (W8 m ρ c) (Proc.devRef .tc main_arg11)
      after_results)
    refine Eq.trans ?_ (W8_of_ne m ρ c main_arg11 (by decide)).symm
    show _ = StableHlo.after hostOps2_2 (W6 m ρ c) (Proc.devRef .tc main_arg11)
    after_results
  show StableHlo.after hostOps2_2 (W6 m ρ c) (Proc.devRef .tc main_v53) = _
  unfold val_main_v79
  after_results
  rw [h4]
/-- Argument 13, transposed. -/
theorem V7_v54 (c : Dev nD) : V7 m ρ c main_v54 = val_main_v85 (F := Ideal) (A13 m c) := by
  have h4 : W4 m ρ c (Proc.devRef .tc main_arg13) = A13 m c := by
    refine Eq.trans ?_ (W9_main_arg13 m ρ c)
    refine Eq.trans ?_ (show W8 m ρ c (Proc.devRef .tc main_arg13) = W9 m ρ c (Proc.devRef .tc main_arg13) from by
      show _ = StableHlo.after hostOps3 (W8 m ρ c) (Proc.devRef .tc main_arg13)
      after_results)
    refine Eq.trans ?_ (W8_of_ne m ρ c main_arg13 (by decide)).symm
    show _ = StableHlo.after hostOps2_2 (W6 m ρ c) (Proc.devRef .tc main_arg13)
    after_results
  show StableHlo.after hostOps2_2 (W6 m ρ c) (Proc.devRef .tc main_v54) = _
  unfold val_main_v85
  after_results
  rw [h4]
/-- Argument 15, transposed. -/
theorem V7_v55 (c : Dev nD) : V7 m ρ c main_v55 = val_main_v91 (F := Ideal) (A15 m c) := by
  have h4 : W4 m ρ c (Proc.devRef .tc main_arg15) = A15 m c := by
    refine Eq.trans ?_ (W9_main_arg15 m ρ c)
    refine Eq.trans ?_ (show W8 m ρ c (Proc.devRef .tc main_arg15) = W9 m ρ c (Proc.devRef .tc main_arg15) from by
      show _ = StableHlo.after hostOps3 (W8 m ρ c) (Proc.devRef .tc main_arg15)
      after_results)
    refine Eq.trans ?_ (W8_of_ne m ρ c main_arg15 (by decide)).symm
    show _ = StableHlo.after hostOps2_2 (W6 m ρ c) (Proc.devRef .tc main_arg15)
    after_results
  show StableHlo.after hostOps2_2 (W6 m ρ c) (Proc.devRef .tc main_v55) = _
  unfold val_main_v91
  after_results
  rw [h4]
/-- Argument 17, transposed. -/
theorem V7_v56 (c : Dev nD) : V7 m ρ c main_v56 = val_main_v96 (F := Ideal) (A17 m c) := by
  have h4 : W4 m ρ c (Proc.devRef .tc main_arg17) = A17 m c := by
    refine Eq.trans ?_ (W9_main_arg17 m ρ c)
    refine Eq.trans ?_ (show W8 m ρ c (Proc.devRef .tc main_arg17) = W9 m ρ c (Proc.devRef .tc main_arg17) from by
      show _ = StableHlo.after hostOps3 (W8 m ρ c) (Proc.devRef .tc main_arg17)
      after_results)
    refine Eq.trans ?_ (W8_of_ne m ρ c main_arg17 (by decide)).symm
    show _ = StableHlo.after hostOps2_2 (W6 m ρ c) (Proc.devRef .tc main_arg17)
    after_results
  show StableHlo.after hostOps2_2 (W6 m ρ c) (Proc.devRef .tc main_v56) = _
  unfold val_main_v96
  after_results
  rw [h4]
/-- Argument 19, transposed. -/
theorem V7_v57 (c : Dev nD) : V7 m ρ c main_v57 = val_main_v102 (F := Ideal) (A19 m c) := by
  have h4 : W4 m ρ c (Proc.devRef .tc main_arg19) = A19 m c := by
    refine Eq.trans ?_ (W9_main_arg19 m ρ c)
    refine Eq.trans ?_ (show W8 m ρ c (Proc.devRef .tc main_arg19) = W9 m ρ c (Proc.devRef .tc main_arg19) from by
      show _ = StableHlo.after hostOps3 (W8 m ρ c) (Proc.devRef .tc main_arg19)
      after_results)
    refine Eq.trans ?_ (W8_of_ne m ρ c main_arg19 (by decide)).symm
    show _ = StableHlo.after hostOps2_2 (W6 m ρ c) (Proc.devRef .tc main_arg19)
    after_results
  show StableHlo.after hostOps2_2 (W6 m ρ c) (Proc.devRef .tc main_v57) = _
  unfold val_main_v102
  after_results
  rw [h4]
/-- Argument 21, transposed. -/
theorem V7_v58 (c : Dev nD) : V7 m ρ c main_v58 = val_main_v108 (F := Ideal) (A21 m c) := by
  have h4 : W4 m ρ c (Proc.devRef .tc main_arg21) = A21 m c := by
    refine Eq.trans ?_ (W9_main_arg21 m ρ c)
    refine Eq.trans ?_ (show W8 m ρ c (Proc.devRef .tc main_arg21) = W9 m ρ c (Proc.devRef .tc main_arg21) from by
      show _ = StableHlo.after hostOps3 (W8 m ρ c) (Proc.devRef .tc main_arg21)
      after_results)
    refine Eq.trans ?_ (W8_of_ne m ρ c main_arg21 (by decide)).symm
    show _ = StableHlo.after hostOps2_2 (W6 m ρ c) (Proc.devRef .tc main_arg21)
    after_results
  show StableHlo.after hostOps2_2 (W6 m ρ c) (Proc.devRef .tc main_v58) = _
  unfold val_main_v108
  after_results
  rw [h4]

/-- Argument 10, a bias, is an operand of the call itself. -/
theorem V7_arg10 (c : Dev nD) : V7 m ρ c main_arg10 = A10 m c := by
  refine Eq.trans ?_ (W9_main_arg10 m ρ c)
  refine Eq.trans ?_ (show W8 m ρ c (Proc.devRef .tc main_arg10) = W9 m ρ c (Proc.devRef .tc main_arg10) from by
    show _ = StableHlo.after hostOps3 (W8 m ρ c) (Proc.devRef .tc main_arg10)
    after_results)
  exact (((W8_arr m ρ c 2).trans (((dat2 (V7 m ρ) c).arrAt_in 2 rfl _).trans (A_eq2 (V7 m ρ) c 2)))).symm
/-- Argument 12, a bias, is an operand of the call itself. -/
theorem V7_arg12 (c : Dev nD) : V7 m ρ c main_arg12 = A12 m c := by
  refine Eq.trans ?_ (W9_main_arg12 m ρ c)
  refine Eq.trans ?_ (show W8 m ρ c (Proc.devRef .tc main_arg12) = W9 m ρ c (Proc.devRef .tc main_arg12) from by
    show _ = StableHlo.after hostOps3 (W8 m ρ c) (Proc.devRef .tc main_arg12)
    after_results)
  exact (((W8_arr m ρ c 4).trans (((dat2 (V7 m ρ) c).arrAt_in 4 rfl _).trans (A_eq2 (V7 m ρ) c 4)))).symm
/-- Argument 14, a bias, is an operand of the call itself. -/
theorem V7_arg14 (c : Dev nD) : V7 m ρ c main_arg14 = A14 m c := by
  refine Eq.trans ?_ (W9_main_arg14 m ρ c)
  refine Eq.trans ?_ (show W8 m ρ c (Proc.devRef .tc main_arg14) = W9 m ρ c (Proc.devRef .tc main_arg14) from by
    show _ = StableHlo.after hostOps3 (W8 m ρ c) (Proc.devRef .tc main_arg14)
    after_results)
  exact (((W8_arr m ρ c 6).trans (((dat2 (V7 m ρ) c).arrAt_in 6 rfl _).trans (A_eq2 (V7 m ρ) c 6)))).symm
/-- Argument 16, a bias, is an operand of the call itself. -/
theorem V7_arg16 (c : Dev nD) : V7 m ρ c main_arg16 = A16 m c := by
  refine Eq.trans ?_ (W9_main_arg16 m ρ c)
  refine Eq.trans ?_ (show W8 m ρ c (Proc.devRef .tc main_arg16) = W9 m ρ c (Proc.devRef .tc main_arg16) from by
    show _ = StableHlo.after hostOps3 (W8 m ρ c) (Proc.devRef .tc main_arg16)
    after_results)
  exact (((W8_arr m ρ c 8).trans (((dat2 (V7 m ρ) c).arrAt_in 8 rfl _).trans (A_eq2 (V7 m ρ) c 8)))).symm
/-- Argument 18, a bias, is an operand of the call itself. -/
theorem V7_arg18 (c : Dev nD) : V7 m ρ c main_arg18 = A18 m c := by
  refine Eq.trans ?_ (W9_main_arg18 m ρ c)
  refine Eq.trans ?_ (show W8 m ρ c (Proc.devRef .tc main_arg18) = W9 m ρ c (Proc.devRef .tc main_arg18) from by
    show _ = StableHlo.after hostOps3 (W8 m ρ c) (Proc.devRef .tc main_arg18)
    after_results)
  exact (((W8_arr m ρ c 10).trans (((dat2 (V7 m ρ) c).arrAt_in 10 rfl _).trans (A_eq2 (V7 m ρ) c 10)))).symm
/-- Argument 20, a bias, is an operand of the call itself. -/
theorem V7_arg20 (c : Dev nD) : V7 m ρ c main_arg20 = A20 m c := by
  refine Eq.trans ?_ (W9_main_arg20 m ρ c)
  refine Eq.trans ?_ (show W8 m ρ c (Proc.devRef .tc main_arg20) = W9 m ρ c (Proc.devRef .tc main_arg20) from by
    show _ = StableHlo.after hostOps3 (W8 m ρ c) (Proc.devRef .tc main_arg20)
    after_results)
  exact (((W8_arr m ρ c 12).trans (((dat2 (V7 m ρ) c).arrAt_in 12 rfl _).trans (A_eq2 (V7 m ρ) c 12)))).symm
/-- Argument 22, a bias, is an operand of the call itself. -/
theorem V7_arg22 (c : Dev nD) : V7 m ρ c main_arg22 = A22 m c := by
  refine Eq.trans ?_ (W9_main_arg22 m ρ c)
  refine Eq.trans ?_ (show W8 m ρ c (Proc.devRef .tc main_arg22) = W9 m ρ c (Proc.devRef .tc main_arg22) from by
    show _ = StableHlo.after hostOps3 (W8 m ρ c) (Proc.devRef .tc main_arg22)
    after_results)
  exact (((W8_arr m ρ c 14).trans (((dat2 (V7 m ρ) c).arrAt_in 14 rfl _).trans (A_eq2 (V7 m ρ) c 14)))).symm

end Cert.Bridge

end
-- ==== Proof.MlpRow.lean ====
/-
  One row of the per-edge network. For edge e with endpoint features f = feat(e,·) (256 numbers) the result is
      r = (relu∘L6 ∘ relu∘L5 ∘ ... applied in turn) with  L_i(v) = v · W_iᵀ + b_i,
  seven affine layers 256→128→64→32→16→8→4→50 with a relu after layers 1, 2, 3, 5 and 6 and none after 4 and 7.
  The kernel computes it on a tile of 8192 edges (reading the features as bf16 and widening them, which changes
  no value over the extended reals), the reference on all 500000 edges; row p of the tile and row e of the array
  get the same result when row p of the tile's features is row e of the reference's: a matrix product reads one
  row of its left operand, and every other operation is pointwise along the row.
-/
import proofs.«401488_j72980084293699_3_alg».proof.Proof.Gen.KernelIdeal.Skeleton
import proofs.«401488_j72980084293699_3_alg».proof.Proof.Gen.ReferenceIdeal.Read
import proofs.«401488_j72980084293699_3_alg».proof.Proof.RowLib
import Idealize.ShloMosaic.Lib.ValueLayout

noncomputable section

namespace Cert.Bridge

open Idealize.ShloMosaic Idealize.ShloMosaic.ValueIdx
open Cert.KernelIdeal Cert.KernelIdeal.Gen
open Cert.ReferenceIdeal.Read

/-! ## One layer, for any sizes

A tile of M rows against an array of M' rows, K inputs and N outputs per row. -/

/-- The kernel's bias: a length-N vector viewed as one row and repeated over M rows reads, at (p, q), entry q. -/
theorem bias_tile {M N : Nat} (c : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ c hc) hb (ix2 p q) = c (ix1 q) := by
  rw [broadcastTo_1b_ab_apply, shapeCast_a_1a_apply]

/-- The reference's bias: the same vector placed on axis 1 of a one-row array and then spread over M rows reads,
    at (p, q), entry q as well. -/
theorem bias_host {M N : Nat} (c : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 c) (ix2 p q) = c (ix1 q) := by
  rw [broadcastInDim_apply _ h2 _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply _ h1 c (ix2 (0 : Fin 1) q) (ix1 q) (fun a => by
        match a with
        | ⟨0, _⟩ =>
          show q.val = if N = 1 then 0 else q.val
          split
          · have := q.isLt; omega
          · rfl)]

/-- One affine layer, row against row: if row p of the tile's input is row p' of the array's input, then row p of
    (input · W + bias) on the tile is row p' of the same on the array. The product reads only that row of the
    input, and the bias does not depend on the row. -/
theorem affine_row {M M' K N : Nat} (A : FVec Ideal ⟨2, ![M, K]⟩ .f32) (A' : FVec Ideal ⟨2, ![M', K]⟩ .f32)
    (W : FVec Ideal ⟨2, ![K, N]⟩ .f32) (c : FVec Ideal ⟨1, ![N]⟩ .f32)
    (hW : (⟨2, ![K, N]⟩ : Shape).ShapeCasts ⟨2, ![K, N]⟩)
    (hc : (⟨1, ![N]⟩ : Shape).ShapeCasts ⟨2, ![1, N]⟩) (hb : (⟨2, ![1, N]⟩ : Shape).Broadcasts ⟨2, ![M, N]⟩)
    (h1 : (⟨1, ![N]⟩ : Shape).BroadcastsInDim ⟨2, ![1, N]⟩ ![1])
    (h2 : (⟨2, ![1, N]⟩ : Shape).BroadcastsInDim ⟨2, ![M', N]⟩ ![0, 1])
    (p : Fin M) (p' : Fin M') (h : ∀ k : Fin K, A (ix2 p k) = A' (ix2 p' k)) (q : Fin N) :
    addf (matmul (DotDims.plain M K N) none A (shapeCast ⟨2, ![K, N]⟩ W hW) (constant ⟨2, ![M, N]⟩ .f32 0x00000000#32))
        (broadcastTo ⟨2, ![M, N]⟩ (shapeCast ⟨2, ![1, N]⟩ c hc) hb) (ix2 p q)
      = addf (Host.dotGeneral (DotDims.plain M' K N) none A' W)
        (broadcastInDim ⟨2, ![M', N]⟩ ![0, 1] h2 (broadcastInDim ⟨2, ![1, N]⟩ ![1] h1 c)) (ix2 p' q) := by
  rw [addf_apply, addf_apply, bias_tile, bias_host, shapeCast_self,
    Cert.RowLib.matmul_plain_row none none A A' W p p' q h]

/-- A relu keeps rows equal: the maximum with zero is taken entry by entry, and both sides' zero is the same
    constant (a splat of the scalar on the tile, a rank-0 constant spread over the array in the reference). -/
theorem relu_row {M M' N : Nat} (X : FVec Ideal ⟨2, ![M, N]⟩ .f32) (X' : FVec Ideal ⟨2, ![M', N]⟩ .f32)
    (h0 : (⟨0, ![]⟩ : Shape).BroadcastsInDim ⟨2, ![M', N]⟩ ![])
    (p : Fin M) (p' : Fin M') (q : Fin N) (h : X (ix2 p q) = X' (ix2 p' q)) :
    maximumf X (broadcast ⟨2, ![M, N]⟩ (Scalar.ofBits .f32 0x00000000#32)) (ix2 p q)
      = maximumf X' (broadcastInDim ⟨2, ![M', N]⟩ ![] h0 (constant ⟨0, ![]⟩ .f32 0x00000000#32)) (ix2 p' q) := by
  rw [maximumf_apply, maximumf_apply, h]
  rfl

/-! ## The seven layers

Each step below peels the outermost remaining layer off both sides: an affine layer asks for the rows of its inputs
to agree (at every column k of the input), a relu for the entries under it to agree. -/

/-- Layers 1 to 4 (256→128→64→32→16, a relu after the first three): row p of the tile's value is row e of the
    reference's, given that row p of the tile's features is row e of the reference's features. -/
theorem pay2_row (x0 : (⟨S50000x16, .f32⟩ : BufTy).Contents (Elt Ideal)) (x1 : (⟨S2x500000, .i32⟩ : BufTy).Contents (Elt Ideal)) (x3 : (⟨S64x16, .f32⟩ : BufTy).Contents (Elt Ideal)) (x4 : (⟨S64, .f32⟩ : BufTy).Contents (Elt Ideal)) (x5 : (⟨S64x16, .f32⟩ : BufTy).Contents (Elt Ideal)) (x6 : (⟨S128x64, .f32⟩ : BufTy).Contents (Elt Ideal)) (x7 : (⟨S128, .f32⟩ : BufTy).Contents (Elt Ideal)) (x8 : (⟨S128x64, .f32⟩ : BufTy).Contents (Elt Ideal)) (x9 : (⟨S128x256, .f32⟩ : BufTy).Contents (Elt Ideal)) (x10 : (⟨S128, .f32⟩ : BufTy).Contents (Elt Ideal)) (x11 : (⟨S64x128, .f32⟩ : BufTy).Contents (Elt Ideal)) (x12 : (⟨S64, .f32⟩ : BufTy).Contents (Elt Ideal)) (x13 : (⟨S32x64, .f32⟩ : BufTy).Contents (Elt Ideal)) (x14 : (⟨S32, .f32⟩ : BufTy).Contents (Elt Ideal)) (x15 : (⟨S16x32, .f32⟩ : BufTy).Contents (Elt Ideal)) (x16 : (⟨S16, .f32⟩ : BufTy).Contents (Elt Ideal))
    (b0 : Vec Ideal S8192x256 .bf16) (p : Fin 8192) (e : Fin 500000)
    (h0 : ∀ k : Fin 256, b0 (ix2 p k) = val_main_v72 (F := Ideal) x0 x1 x3 x4 x5 x6 x7 x8 (ix2 e k)) (k4 : Fin 16) :
    k2_pay2 (F := Ideal) b0 (val_main_v73 (F := Ideal) x9) x10 (val_main_v79 (F := Ideal) x11) x12
        (val_main_v85 (F := Ideal) x13) x14 (val_main_v91 (F := Ideal) x15) x16 (ix2 p k4)
      = val_main_v95 (F := Ideal) x0 x1 x3 x4 x5 x6 x7 x8 x9 x10 x11 x12 x13 x14 x15 x16 (ix2 e k4) := by
  -- layer 4, no relu after it
  refine affine_row (M := 8192) (M' := 500000) (K := 32) (N := 16) _ _ _ _ _ _ _ _ _ p e (fun k3 => ?_) k4
  -- layer 3 under its relu
  refine relu_row (M := 8192) (M' := 500000) (N := 32) _ _ _ p e k3 ?_
  refine affine_row (M := 8192) (M' := 500000) (K := 64) (N := 32) _ _ _ _ _ _ _ _ _ p e (fun k2 => ?_) k3
  -- layer 2 under its relu
  refine relu_row (M := 8192) (M' := 500000) (N := 64) _ _ _ p e k2 ?_
  refine affine_row (M := 8192) (M' := 500000) (K := 128) (N := 64) _ _ _ _ _ _ _ _ _ p e (fun k1 => ?_) k2
  -- layer 1 under its relu
  refine relu_row (M := 8192) (M' := 500000) (N := 128) _ _ _ p e k1 ?_
  refine affine_row (M := 8192) (M' := 500000) (K := 256) (N := 128) _ _ _ _ _ _ _ _ _ p e (fun k0 => ?_) k1
  -- the input: widening the features changes no value, and the cast is to the same shape
  rw [extf_apply, shapeCast_self]
  exact h0 k0

/-- Row p of the tile's result is row e of the reference's result. -/
theorem mlp_row (x0 : (⟨S50000x16, .f32⟩ : BufTy).Contents (Elt Ideal)) (x1 : (⟨S2x500000, .i32⟩ : BufTy).Contents (Elt Ideal)) (x3 : (⟨S64x16, .f32⟩ : BufTy).Contents (Elt Ideal)) (x4 : (⟨S64, .f32⟩ : BufTy).Contents (Elt Ideal)) (x5 : (⟨S64x16, .f32⟩ : BufTy).Contents (Elt Ideal)) (x6 : (⟨S128x64, .f32⟩ : BufTy).Contents (Elt Ideal)) (x7 : (⟨S128, .f32⟩ : BufTy).Contents (Elt Ideal)) (x8 : (⟨S128x64, .f32⟩ : BufTy).Contents (Elt Ideal)) (x9 : (⟨S128x256, .f32⟩ : BufTy).Contents (Elt Ideal)) (x10 : (⟨S128, .f32⟩ : BufTy).Contents (Elt Ideal)) (x11 : (⟨S64x128, .f32⟩ : BufTy).Contents (Elt Ideal)) (x12 : (⟨S64, .f32⟩ : BufTy).Contents (Elt Ideal)) (x13 : (⟨S32x64, .f32⟩ : BufTy).Contents (Elt Ideal)) (x14 : (⟨S32, .f32⟩ : BufTy).Contents (Elt Ideal)) (x15 : (⟨S16x32, .f32⟩ : BufTy).Contents (Elt Ideal)) (x16 : (⟨S16, .f32⟩ : BufTy).Contents (Elt Ideal)) (x17 : (⟨S8x16, .f32⟩ : BufTy).Contents (Elt Ideal)) (x18 : (⟨S8, .f32⟩ : BufTy).Contents (Elt Ideal)) (x19 : (⟨S4x8, .f32⟩ : BufTy).Contents (Elt Ideal)) (x20 : (⟨S4, .f32⟩ : BufTy).Contents (Elt Ideal)) (x21 : (⟨S50x4, .f32⟩ : BufTy).Contents (Elt Ideal)) (x22 : (⟨S50, .f32⟩ : BufTy).Contents (Elt Ideal))
    (b0 : Vec Ideal S8192x256 .bf16)
    (w1 : Vec Ideal S256x128 .f32) (c1 : Vec Ideal S128 .f32) (w2 : Vec Ideal S128x64 .f32) (c2 : Vec Ideal S64 .f32)
    (w3 : Vec Ideal S64x32 .f32) (c3 : Vec Ideal S32 .f32) (w4 : Vec Ideal S32x16 .f32) (c4 : Vec Ideal S16 .f32)
    (w5 : Vec Ideal S16x8 .f32) (c5 : Vec Ideal S8 .f32) (w6 : Vec Ideal S8x4 .f32) (c6 : Vec Ideal S4 .f32)
    (w7 : Vec Ideal S4x50 .f32) (c7 : Vec Ideal S50 .f32)
    (p : Fin 8192) (e : Fin 500000)
    (h0 : ∀ k : Fin 256, b0 (ix2 p k) = val_main_v72 (F := Ideal) x0 x1 x3 x4 x5 x6 x7 x8 (ix2 e k))
    (hw1 : w1 = val_main_v73 (F := Ideal) x9) (hc1 : c1 = x10) (hw2 : w2 = val_main_v79 (F := Ideal) x11) (hc2 : c2 = x12)
    (hw3 : w3 = val_main_v85 (F := Ideal) x13) (hc3 : c3 = x14) (hw4 : w4 = val_main_v91 (F := Ideal) x15) (hc4 : c4 = x16)
    (hw5 : w5 = val_main_v96 (F := Ideal) x17) (hc5 : c5 = x18) (hw6 : w6 = val_main_v102 (F := Ideal) x19) (hc6 : c6 = x20)
    (hw7 : w7 = val_main_v108 (F := Ideal) x21) (hc7 : c7 = x22) (q : Fin 50) :
    k2_pay1 (F := Ideal) (k2_pay2 (F := Ideal) b0 w1 c1 w2 c2 w3 c3 w4 c4) w5 c5 w6 c6 w7 c7 (ix2 p q)
      = val_main_v112 (F := Ideal) x0 x1 x3 x4 x5 x6 x7 x8 x9 x10 x11 x12 x13 x14 x15 x16 x17 x18 x19 x20 x21 x22 (ix2 e q) := by
  subst w1 c1 w2 c2 w3 c3 w4 c4 w5 c5 w6 c6 w7 c7
  -- layer 7, no relu after it
  refine affine_row (M := 8192) (M' := 500000) (K := 4) (N := 50) _ _ _ _ _ _ _ _ _ p e (fun k6 => ?_) q
  -- layer 6 under its relu
  refine relu_row (M := 8192) (M' := 500000) (N := 4) _ _ _ p e k6 ?_
  refine affine_row (M := 8192) (M' := 500000) (K := 8) (N := 4) _ _ _ _ _ _ _ _ _ p e (fun k5 => ?_) k6
  -- layer 5 under its relu
  refine relu_row (M := 8192) (M' := 500000) (N := 8) _ _ _ p e k5 ?_
  refine affine_row (M := 8192) (M' := 500000) (K := 16) (N := 8) _ _ _ _ _ _ _ _ _ p e (fun k4 => ?_) k5
  -- layers 1 to 4
  exact pay2_row _ _ _ _ _ _ _ _ _ _ _ _ _ _ _ _ b0 p e h0 k4

end Cert.Bridge

end
-- ==== Proof.Region2.lean ====
/-
  The result of the per-edge network. After the third kernel call, every row e < 500000 of its result array holds
  the reference's result for edge e: each of the 62 row tiles is written back with the body's value of the tile's
  rows of the edge features, whose first 500000 rows are the reference's features, row by row the reference's
  value; and the tiles fill the array. (The 7904 rows below hold what the network makes of zero features; nothing
  is claimed of them, and the program's last operation cuts them off.)
-/
import proofs.«401488_j72980084293699_3_alg».proof.Proof.Blocks2
import proofs.«401488_j72980084293699_3_alg».proof.Proof.Blocks2Whole
import proofs.«401488_j72980084293699_3_alg».proof.Proof.Host2
import proofs.«401488_j72980084293699_3_alg».proof.Proof.Host2Operands
import proofs.«401488_j72980084293699_3_alg».proof.Proof.MlpRow

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read
open Idealize.ShloMosaic.Pipeline (Dat Cfg Window)

variable (m : (ℓ : Loc nD τ sig) → Buf (Elt Ideal) ℓ) (ρ : Dev nD → PrngReg)

/-- The reference's result, of the arguments as launched on core `c`. -/
abbrev refResult (c : Dev nD) : (⟨S500000x50, .f32⟩ : BufTy).Contents (Elt Ideal) :=
  val_main_v112 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c)

/-- What point t writes back at row p of its tile is the reference's result at the array row that row is, when that
    row is an edge's (below 500000). -/
theorem flushed_row (c : Dev nD) (t : Fin cfg2.N) (p : Fin 8192) (q : Fin 50) (hi : (R2.row2 t p).val < 500000) :
    (dat2 (V7 m ρ) c).flushed 15 t (ix2 p q) = refResult m c (ix2 ⟨(R2.row2 t p).val, hi⟩ q) := by
  rw [R2.flushed2_15]
  exact mlp_row (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c)
    (iblk2 (V7 m ρ) c 0 t) (iblk2 (V7 m ρ) c 1 t) (iblk2 (V7 m ρ) c 2 t) (iblk2 (V7 m ρ) c 3 t) (iblk2 (V7 m ρ) c 4 t)
    (iblk2 (V7 m ρ) c 5 t) (iblk2 (V7 m ρ) c 6 t) (iblk2 (V7 m ρ) c 7 t) (iblk2 (V7 m ρ) c 8 t) (iblk2 (V7 m ρ) c 9 t)
    (iblk2 (V7 m ρ) c 10 t) (iblk2 (V7 m ρ) c 11 t) (iblk2 (V7 m ρ) c 12 t) (iblk2 (V7 m ρ) c 13 t) (iblk2 (V7 m ρ) c 14 t)
    p ⟨(R2.row2 t p).val, hi⟩
    (fun k => (R2.iblk2_0 (V7 m ρ) c t p k).trans (V7_v51_row m ρ c ⟨(R2.row2 t p).val, hi⟩ k))
    ((R2.iblk2_1 (V7 m ρ) c t).trans (V7_v52 m ρ c)) ((R2.iblk2_2 (V7 m ρ) c t).trans (V7_arg10 m ρ c))
    ((R2.iblk2_3 (V7 m ρ) c t).trans (V7_v53 m ρ c)) ((R2.iblk2_4 (V7 m ρ) c t).trans (V7_arg12 m ρ c))
    ((R2.iblk2_5 (V7 m ρ) c t).trans (V7_v54 m ρ c)) ((R2.iblk2_6 (V7 m ρ) c t).trans (V7_arg14 m ρ c))
    ((R2.iblk2_7 (V7 m ρ) c t).trans (V7_v55 m ρ c)) ((R2.iblk2_8 (V7 m ρ) c t).trans (V7_arg16 m ρ c))
    ((R2.iblk2_9 (V7 m ρ) c t).trans (V7_v56 m ρ c)) ((R2.iblk2_10 (V7 m ρ) c t).trans (V7_arg18 m ρ c))
    ((R2.iblk2_11 (V7 m ρ) c t).trans (V7_v57 m ρ c)) ((R2.iblk2_12 (V7 m ρ) c t).trans (V7_arg20 m ρ c))
    ((R2.iblk2_13 (V7 m ρ) c t).trans (V7_v58 m ρ c)) ((R2.iblk2_14 (V7 m ρ) c t).trans (V7_arg22 m ρ c)) q

/-- After the third call, row e < 500000 of the result array is the reference's result for edge e. -/
theorem V8_v59_row (c : Dev nD) (i : S507904x50.Idx) (hi : (i 0).val < 500000) :
    V8 m ρ c main_v59 i = refResult m c (ix2 ⟨(i 0).val, hi⟩ ⟨(i 1).val, (i 1).isLt⟩) := by
  have h := (dat2 (V7 m ρ) c).arrAt_forall_of_cover 15
    (fun i v => ∀ hi : (i 0).val < 500000, v = refResult m c (ix2 ⟨(i 0).val, hi⟩ ⟨(i 1).val, (i 1).isLt⟩))
    (fun t _ y => by
      obtain ⟨p, q, rfl⟩ : ∃ (p : Fin 8192) (q : Fin 50), y = ix2 p q := ⟨y 0, y 1, eq_ix2 y⟩
      have key : ∀ i : S507904x50.Idx, i = ix2 (R2.row2 t p) q → ∀ hi : (i 0).val < 500000,
          (dat2 (V7 m ρ) c).flushed 15 t (ix2 p q) = refResult m c (ix2 ⟨(i 0).val, hi⟩ ⟨(i 1).val, (i 1).isLt⟩) := by
        rintro i rfl hi
        exact flushed_row m ρ c t p q hi
      exact key _ (R2.emb2_15 t p q))
    R2.cover2_arr i
  exact (congrFun (hF2 m ρ c 15) i).symm.trans (h hi)

end Cert.Bridge

end
-- ==== Proof.Tail.lean ====
/-
  The program's result. Its last operation keeps rows 0 … 499999 of the third call's result array, which are the
  reference's result edge by edge; so the program's result array IS the reference's result of the arguments.
-/
import proofs.«401488_j72980084293699_3_alg».proof.Proof.Region2

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg)

/-- At the end of the run the result array holds the reference's result of the arguments as launched. -/
theorem W9_v60 (c : Dev nD) : W9 m ρ c (Proc.devRef .tc main_v60) = refResult m c := by
  have h : W9 m ρ c (Proc.devRef .tc main_v60)
      = extractStridedSlice S500000x50 ![0, 0] (W8 m ρ c (Proc.devRef .tc main_v59)) slices_S507904x50_S500000x50_0_0 := by
    show StableHlo.after hostOps3 (W8 m ρ c) (Proc.devRef .tc main_v60) = _
    after_results
  rw [h]
  funext j
  obtain ⟨e, q, rfl⟩ : ∃ (e : Fin 500000) (q : Fin 50), j = ix2 e q := ⟨j 0, j 1, eq_ix2 j⟩
  rw [extractStridedSlice_apply ![0, 0] _ slices_S507904x50_S500000x50_0_0 (ix2 e q)
    (ix2 (⟨e.val, by have := e.isLt; omega⟩ : Fin 507904) q)
    (fun a => match a with
      | ⟨0, _⟩ => by show e.val = 0 + e.val; omega
      | ⟨1, _⟩ => by show q.val = 0 + q.val; omega)]
  exact V8_v59_row m ρ c (ix2 (⟨e.val, by have := e.isLt; omega⟩ : Fin 507904) q) e.isLt

end Cert.Bridge

end
-- ==== Proof.lean ====
/-
  A two-layer graph network followed by a per-edge network: every node's features are replaced twice by
      relu( mean of the in-neighbours' features · Wlᵀ + b + own features · Wrᵀ )
  (the mean is the neighbours' sum over max(count, 1)), then every edge gets the seven-layer network's value of its
  two endpoints' features joined side by side. The kernel program computes each of the three dense stages in a
  kernel call tiled over rows (5 tiles of 10000 nodes, twice; 62 tiles of 8192 edges, after padding the 500000
  edges with rows of zeros that the end cuts off again) and leaves the gathers and the neighbour sums to the host,
  exactly as the reference does them; it keeps the second hidden layer in a narrower float format. Over the
  extended reals a format change is the identity, a tile's matrix product into a zero accumulator is the host's
  product restricted to the tile's rows, and everything else is the same pointwise operation on both sides — so
  the two programs compute one function, stage by stage: the neighbour sums and counts (the same host operations),
  the first hidden layer, its neighbour sums, the second hidden layer, the edge features, the result. No law of
  arithmetic beyond commutativity of max is used, and the inputs' finiteness is not needed.
  The kernel program's run is its frame run with the result array named (the launch theorem once more), the
  reference's its generated run; the edge labels pass through both unchanged.
-/
import proofs.«401488_j72980084293699_3_alg».proof.Defs
import proofs.«401488_j72980084293699_3_alg».proof.Proof.Gen.Kernel
import proofs.«401488_j72980084293699_3_alg».proof.Proof.Gen.Kernel.Skeleton
import proofs.«401488_j72980084293699_3_alg».proof.Proof.Gen.Kernel.Launch
import proofs.«401488_j72980084293699_3_alg».proof.Proof.Gen.Kernel.Points
import proofs.«401488_j72980084293699_3_alg».proof.Proof.Gen.Kernel.Frame
import proofs.«401488_j72980084293699_3_alg».proof.Proof.Gen.KernelIdeal
import proofs.«401488_j72980084293699_3_alg».proof.Proof.Gen.KernelIdeal.Skeleton
import proofs.«401488_j72980084293699_3_alg».proof.Proof.Gen.KernelIdeal.Launch
import proofs.«401488_j72980084293699_3_alg».proof.Proof.Gen.KernelIdeal.Points
import proofs.«401488_j72980084293699_3_alg».proof.Proof.Gen.KernelIdeal.Frame
import proofs.«401488_j72980084293699_3_alg».proof.Proof.Gen.ReferenceIdeal
import proofs.«401488_j72980084293699_3_alg».proof.Proof.Gen.Pre_finite_inputs
import proofs.«401488_j72980084293699_3_alg».proof.Proof.Gen.ReferenceIdeal.Run
import proofs.«401488_j72980084293699_3_alg».proof.Proof.Gen.ReferenceIdeal.Read
import proofs.«401488_j72980084293699_3_alg».proof.Proof.KernelRun
import proofs.«401488_j72980084293699_3_alg».proof.Proof.Tail
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories agreeing on the arguments both programs end with the reference's result of those arguments in the
    result array, and with the edge labels, which neither writes, as the second result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.refResult m c,
    fun c => m ((c.tc : Thread Cert.KernelIdeal.nD Cert.KernelIdeal.τ).loc Cert.KernelIdeal.main_arg2), ?_, ?_⟩
  · exact (θ_run Cert.KernelIdeal.defs _ _).mono
      (fun r h c => ⟨(h c).1.trans (Cert.Bridge.W9_v60 m ρ c), (h c).2.2.2.1, (h c).2⟩)
      (Cert.KernelIdeal.ValueRun.run m ρ)
  · refine (θ_run Cert.ReferenceIdeal.defs _ _).mono (fun r h c => ⟨?_, (h c).2.1.trans (hagree c).2.2.1, (h c).2.2⟩)
      (Cert.ReferenceIdeal.Value.run (F := Ideal) m' ρ')
    rw [(h c).1, Cert.ReferenceIdeal.Read.val_main_v112_eq,
      (hagree c).1,
      (hagree c).2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2.1,
      (hagree c).2.2.2.2.2.2.2.2.2.2.2.2.2.2.2.2.2.1,
      (hagree c).2.2.2.2.2.2.2.2.2.2.2.2.2.2.2.2.2.2.1,
      (hagree c).2.2.2.2.2.2.2.2.2.2.2.2.2.2.2.2.2.2.2.1,
      (hagree c).2.2.2.2.2.2.2.2.2.2.2.2.2.2.2.2.2.2.2.2.1,
      (hagree c).2.2.2.2.2.2.2.2.2.2.2.2.2.2.2.2.2.2.2.2.2.1,
      (hagree c).2.2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
